-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S256x1024 : Shape := ⟨2, ![256, 1024]⟩
abbrev S256 : Shape := ⟨1, ![256]⟩
abbrev S8x256 : Shape := ⟨2, ![8, 256]⟩
abbrev S8 : Shape := ⟨1, ![8]⟩
abbrev S8x1024x1024 : Shape := ⟨3, ![8, 1024, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S8x256 : S_.BroadcastsInDim S8x256 (![] : Fin 0 → Fin S8x256.rank)
  reducesTo_S8x256_S_d0_1 : S8x256.ReducesTo [0, 1] S_
  bcast_S_S8 : S_.BroadcastsInDim S8 (![] : Fin 0 → Fin S8.rank)
  reducesTo_S8_S_d0 : S8.ReducesTo [0] S_
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S8 .f32) (main_arg5 : FVec F S8x1024x1024 .f32) (main_arg6 : FVec F S1024x1024 .f32) (main_v13 : IVec S_ 1) (main_v16 : IVec S8x256 1) : IVec S_ 1 :=
  let main_c_5 : IVec S_ 1 := constantI S_ 1 1#1
  let main_v17 : IVec S_ 1 := (fun x v => Host.reduce IntOp.andi x v reducesTo_S8x256_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x1024x1024 .f32 := Host.absf main_arg5
  let main_cst_8 : FVec F S_ .f32 := constant S_ .f32 0x7F800000#32
  let main_v25 : FVec F S8x1024x1024 .f32 := broadcastInDim S8x1024x1024 ![] bcast_S_S8x1024x1024 main_cst_8
  let main_v26 : IVec S8x1024x1024 1 := cmpf .olt main_v24 main_v25
  let main_c_9 : IVec S_ 1 := constantI S_ 1 1#1
  let main_v27 : IVec S_ 1 := (fun x v => Host.reduce IntOp.andi x v reducesTo_S8x1024x1024_S_d0_1_2 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  main_v33

def fn {F : FTy → Type} [FloatOps F] (main_arg0 : FVec F S4096x1024 .f32) (main_arg1 : FVec F S256x1024 .f32) (main_arg2 : FVec F S256 .f32) (main_arg3 : FVec F S8x256 .f32) (main_arg4 : FVec F S8 .f32) (main_arg5 : FVec F S8x1024x1024 .f32) (main_arg6 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S8x256 .f32 := Host.absf main_arg3
  let main_cst_4 : FVec F S_ .f32 := constant S_ .f32 0x7F800000#32
  let main_v15 : FVec F S8x256 .f32 := broadcastInDim S8x256 ![] bcast_S_S8x256 main_cst_4
  let main_v16 : IVec S8x256 1 := cmpf .olt main_v14 main_v15
  fn_part1 (F := F) main_arg4 main_arg5 main_arg6 main_v13 main_v16
-- ==== Kernel.lean ====
abbrev S4096x1024 : Shape := ⟨2, ![4096, 1024]⟩
abbrev S256x1024 : Shape := ⟨2, ![256, 1024]⟩
abbrev S256 : Shape := ⟨1, ![256]⟩
abbrev S8x256 : Shape := ⟨2, ![8, 256]⟩
abbrev S8 : Shape := ⟨1, ![8]⟩
abbrev S8x1024x1024 : Shape := ⟨3, ![8, 1024, 1024]⟩
abbrev S1024x1024 : Shape := ⟨2, ![1024, 1024]⟩
abbrev S1024x256 : Shape := ⟨2, ![1024, 256]⟩
abbrev S256x8 : Shape := ⟨2, ![256, 8]⟩
abbrev S1x256 : Shape := ⟨2, ![1, 256]⟩
abbrev S1x8 : Shape := ⟨2, ![1, 8]⟩
abbrev S512x1024 : Shape := ⟨2, ![512, 1024]⟩
abbrev S512x256 : Shape := ⟨2, ![512, 256]⟩
abbrev S512x8 : Shape := ⟨2, ![512, 8]⟩
abbrev S1x1024x1024 : Shape := ⟨3, ![1, 1024, 1024]⟩
abbrev S512x1 : Shape := ⟨2, ![512, 1]⟩

abbrev nBuf : Space → Nat
  | .hbm => 17
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S256, .f32⟩
  | .hbm, ⟨3, _⟩ => ⟨S8x256, .f32⟩
  | .hbm, ⟨4, _⟩ => ⟨S8, .f32⟩
  | .hbm, ⟨5, _⟩ => ⟨S8x1024x1024, .f32⟩
  | .hbm, ⟨6, _⟩ => ⟨S1024x1024, .f32⟩
  | .hbm, ⟨7, _⟩ => ⟨S1024x256, .f32⟩
  | .hbm, ⟨8, _⟩ => ⟨S1024x256, .bf16⟩
  | .hbm, ⟨9, _⟩ => ⟨S256x8, .f32⟩
  | .hbm, ⟨10, _⟩ => ⟨S256x8, .bf16⟩
  | .hbm, ⟨11, _⟩ => ⟨S8x1024x1024, .bf16⟩
  | .hbm, ⟨12, _⟩ => ⟨S1024x1024, .f32⟩
  | .hbm, ⟨13, _⟩ => ⟨S1024x1024, .bf16⟩
  | .hbm, ⟨14, _⟩ => ⟨S1x256, .f32⟩
  | .hbm, ⟨15, _⟩ => ⟨S1x8, .f32⟩
  | .hbm, ⟨16, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x256, .bf16⟩
  | .local _ .vmem, ⟨3, _⟩ => ⟨S1x256, .f32⟩
  | .local _ .vmem, ⟨4, _⟩ => ⟨S256x8, .bf16⟩
  | .local _ .vmem, ⟨5, _⟩ => ⟨S1x8, .f32⟩
  | .local _ .vmem, ⟨6, _⟩ => ⟨S8x1024x1024, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x8 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S256x1024_S1024x256_1_0 : S256x1024.Transposes [1, 0] S1024x256
  bitsLt_bf16_f32 : FTy.bits .bf16 < FTy.bits .f32
  transposes_S8x256_S256x8_1_0 : S8x256.Transposes [1, 0] S256x8
  transposes_S1024x1024_S1024x1024_1_0 : S1024x1024.Transposes [1, 0] S1024x1024
  shapeCasts_S256_S1x256 : S256.ShapeCasts S1x256
  shapeCasts_S8_S1x8 : S8.ShapeCasts S1x8
  inb_S512x1024_S512x1024_0_0 : ∀ a, (![0, 0] : Fin 2 → Nat) a + S512x1024.size a ≤ S512x1024.size a
  h_S512x1024 : 0 < S512x1024.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x8_S256x8_0_0 : ∀ a, (![0, 0] : Fin 2 → Nat) a + S256x8.size a ≤ S256x8.size a
  h_S256x8 : 0 < S256x8.numel
  shapeCasts_S256x8_S256x8 : S256x8.ShapeCasts S256x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S512x8 : S1x8.Broadcasts S512x8
  inb_S8x1024x1024_S1x1024x1024_0_0_0 : ∀ a, (![0, 0, 0] : Fin 3 → Nat) a + S1x1024x1024.size a ≤ S8x1024x1024.size a
  h_S1x1024x1024 : 0 < S1x1024x1024.numel
  shapeCasts_S1x1024x1024_S1024x1024 : S1x1024x1024.ShapeCasts S1024x1024
  slices_S512x8_o0_0_S512x1 : S512x8.Slices ![0, 0] S512x1
  broadcasts_S512x1_S512x1024 : S512x1.Broadcasts S512x1024
  inb_S8x1024x1024_S1x1024x1024_1_0_0 : ∀ a, (![1, 0, 0] : Fin 3 → Nat) a + S1x1024x1024.size a ≤ S8x1024x1024.size a
  slices_S512x8_o0_1_S512x1 : S512x8.Slices ![0, 1] S512x1
  inb_S8x1024x1024_S1x1024x1024_2_0_0 : ∀ a, (![2, 0, 0] : Fin 3 → Nat) a + S1x1024x1024.size a ≤ S8x1024x1024.size a
  slices_S512x8_o0_2_S512x1 : S512x8.Slices ![0, 2] S512x1
  inb_S8x1024x1024_S1x1024x1024_3_0_0 : ∀ a, (![3, 0, 0] : Fin 3 → Nat) a + S1x1024x1024.size a ≤ S8x1024x1024.size a
  slices_S512x8_o0_3_S512x1 : S512x8.Slices ![0, 3] S512x1
  inb_S8x1024x1024_S1x1024x1024_4_0_0 : ∀ a, (![4, 0, 0] : Fin 3 → Nat) a + S1x1024x1024.size a ≤ S8x1024x1024.size a
  slices_S512x8_o0_4_S512x1 : S512x8.Slices ![0, 4] S512x1
  inb_S8x1024x1024_S1x1024x1024_5_0_0 : ∀ a, (![5, 0, 0] : Fin 3 → Nat) a + S1x1024x1024.size a ≤ S8x1024x1024.size a
  slices_S512x8_o0_5_S512x1 : S512x8.Slices ![0, 5] S512x1
  inb_S8x1024x1024_S1x1024x1024_6_0_0 : ∀ a, (![6, 0, 0] : Fin 3 → Nat) a + S1x1024x1024.size a ≤ S8x1024x1024.size a
  slices_S512x8_o0_6_S512x1 : S512x8.Slices ![0, 6] S512x1
  inb_S8x1024x1024_S1x1024x1024_7_0_0 : ∀ a, (![7, 0, 0] : Fin 3 → Nat) a + S1x1024x1024.size a ≤ S8x1024x1024.size a
  slices_S512x8_o0_7_S512x1 : S512x8.Slices ![0, 7] S512x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S512x1024_S1024x256_S512x256_1_0_0_1_n_n_wf : DotDims.WF S512x1024 S1024x256 S512x256 [1] [0] [0] [1] [] []
  dot_S512x256_S256x8_S512x8_1_0_0_1_n_n_wf : DotDims.WF S512x256 S256x8 S512x8 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x8.size a ≤ S256x8.size a
  hwx0_3 : ∀ i : grid0.Coords, EltTy.bits .bf16 = 32 ∨ (Rect.block (s := S256x8) S256x8.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x1024x1024.size a ≤ S8x1024x1024.size a
  hwx0_5 : ∀ i : grid0.Coords, EltTy.bits .bf16 = 32 ∨ (Rect.block (s := S8x1024x1024) S8x1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S4096x1024.size a
  hwx0_7 : ∀ i : grid0.Coords, EltTy.bits .f32 = 32 ∨ (Rect.block (s := S4096x1024) S512x1024.size (cc0_transform_7 i) (hinb0_7 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x8_S512x8_1_0_0_1_n_n : DotDims S512x256 S256x8 S512x8 where
  lhsContracting := [1]
  rhsContracting := [0]
  lhsNonContracting := [0]
  rhsNonContracting := [1]
  lhsBatch := []
  rhsBatch := []
  wf := dot_S512x256_S256x8_S512x8_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S8x1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S256x1024 : Shape := ⟨2, ![256, 1024]⟩
abbrev S256 : Shape := ⟨1, ![256]⟩
abbrev S8x256 : Shape := ⟨2, ![8, 256]⟩
abbrev S8 : Shape := ⟨1, ![8]⟩
abbrev S8x1024x1024 : Shape := ⟨3, ![8, 1024, 1024]⟩
abbrev S1024x1024 : Shape := ⟨2, ![1024, 1024]⟩
abbrev S1024x256 : Shape := ⟨2, ![1024, 256]⟩
abbrev S4096x256 : Shape := ⟨2, ![4096, 256]⟩
abbrev S1x256 : Shape := ⟨2, ![1, 256]⟩
abbrev S_ : Shape := ⟨0, ![]⟩
abbrev S256x8 : Shape := ⟨2, ![256, 8]⟩
abbrev S4096x8 : Shape := ⟨2, ![4096, 8]⟩
abbrev S1x8 : Shape := ⟨2, ![1, 8]⟩
abbrev S4096x1 : Shape := ⟨2, ![4096, 1]⟩
abbrev S1x1024x1024 : Shape := ⟨3, ![1, 1024, 1024]⟩

abbrev nBuf : Space → Nat
  | .hbm => 78
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S256, .f32⟩
  | .hbm, ⟨3, _⟩ => ⟨S8x256, .f32⟩
  | .hbm, ⟨4, _⟩ => ⟨S8, .f32⟩
  | .hbm, ⟨5, _⟩ => ⟨S8x1024x1024, .f32⟩
  | .hbm, ⟨6, _⟩ => ⟨S1024x1024, .f32⟩
  | .hbm, ⟨7, _⟩ => ⟨S1024x256, .f32⟩
  | .hbm, ⟨8, _⟩ => ⟨S4096x256, .f32⟩
  | .hbm, ⟨9, _⟩ => ⟨S1x256, .f32⟩
  | .hbm, ⟨10, _⟩ => ⟨S4096x256, .f32⟩
  | .hbm, ⟨11, _⟩ => ⟨S4096x256, .f32⟩
  | .hbm, ⟨12, _⟩ => ⟨S_, .f32⟩
  | .hbm, ⟨13, _⟩ => ⟨S4096x256, .f32⟩
  | .hbm, ⟨14, _⟩ => ⟨S4096x256, .f32⟩
  | .hbm, ⟨15, _⟩ => ⟨S256x8, .f32⟩
  | .hbm, ⟨16, _⟩ => ⟨S4096x8, .f32⟩
  | .hbm, ⟨17, _⟩ => ⟨S1x8, .f32⟩
  | .hbm, ⟨18, _⟩ => ⟨S4096x8, .f32⟩
  | .hbm, ⟨19, _⟩ => ⟨S4096x8, .f32⟩
  | .hbm, ⟨20, _⟩ => ⟨S4096x1, .f32⟩
  | .hbm, ⟨21, _⟩ => ⟨S1x1024x1024, .f32⟩
  | .hbm, ⟨22, _⟩ => ⟨S1024x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1, .f32⟩
  | .hbm, ⟨28, _⟩ => ⟨S1x1024x1024, .f32⟩
  | .hbm, ⟨29, _⟩ => ⟨S1024x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1, .f32⟩
  | .hbm, ⟨35, _⟩ => ⟨S1x1024x1024, .f32⟩
  | .hbm, ⟨36, _⟩ => ⟨S1024x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S1x1024x1024, .f32⟩
  | .hbm, ⟨43, _⟩ => ⟨S1024x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S1x1024x1024, .f32⟩
  | .hbm, ⟨50, _⟩ => ⟨S1024x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1, .f32⟩
  | .hbm, ⟨56, _⟩ => ⟨S1x1024x1024, .f32⟩
  | .hbm, ⟨57, _⟩ => ⟨S1024x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S1x1024x1024, .f32⟩
  | .hbm, ⟨64, _⟩ => ⟨S1024x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1, .f32⟩
  | .hbm, ⟨70, _⟩ => ⟨S1x1024x1024, .f32⟩
  | .hbm, ⟨71, _⟩ => ⟨S1024x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S1024x1024, .f32⟩
  | .hbm, ⟨77, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩

abbrev nD : Nat := 1
abbrev τ : Topo := Topo.v7x

variable {F : FTy → Type} [FloatOps F]

class Facts₀ : Prop where
  transposes_S256x1024_S1024x256_1_0 : S256x1024.Transposes [1, 0] S1024x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  transposes_S8x256_S256x8_1_0 : S8x256.Transposes [1, 0] S256x8
  bcast_S8_S1x8_1 : S8.BroadcastsInDim S1x8 (![1] : Fin 1 → Fin S1x8.rank)
  bcast_S1x8_S4096x8_0_1 : S1x8.BroadcastsInDim S4096x8 (![0, 1] : Fin 2 → Fin S4096x8.rank)
  slices_S4096x8_S4096x1_0_0 : S4096x8.Slices ![0, 0] S4096x1
  slices_S8x1024x1024_S1x1024x1024_0_0_0 : S8x1024x1024.Slices ![0, 0, 0] S1x1024x1024
  shapeCasts_S1x1024x1024_S1024x1024 : S1x1024x1024.ShapeCasts S1024x1024
  bcast_S4096x1_S4096x1024_0_1 : S4096x1.BroadcastsInDim S4096x1024 (![0, 1] : Fin 2 → Fin S4096x1024.rank)
  slices_S4096x8_S4096x1_0_1 : S4096x8.Slices ![0, 1] S4096x1
  slices_S8x1024x1024_S1x1024x1024_1_0_0 : S8x1024x1024.Slices ![1, 0, 0] S1x1024x1024
  slices_S4096x8_S4096x1_0_2 : S4096x8.Slices ![0, 2] S4096x1
  slices_S8x1024x1024_S1x1024x1024_2_0_0 : S8x1024x1024.Slices ![2, 0, 0] S1x1024x1024
  slices_S4096x8_S4096x1_0_3 : S4096x8.Slices ![0, 3] S4096x1
  slices_S8x1024x1024_S1x1024x1024_3_0_0 : S8x1024x1024.Slices ![3, 0, 0] S1x1024x1024
  slices_S4096x8_S4096x1_0_4 : S4096x8.Slices ![0, 4] S4096x1
  slices_S8x1024x1024_S1x1024x1024_4_0_0 : S8x1024x1024.Slices ![4, 0, 0] S1x1024x1024
  slices_S4096x8_S4096x1_0_5 : S4096x8.Slices ![0, 5] S4096x1
  slices_S8x1024x1024_S1x1024x1024_5_0_0 : S8x1024x1024.Slices ![5, 0, 0] S1x1024x1024
  slices_S4096x8_S4096x1_0_6 : S4096x8.Slices ![0, 6] S4096x1
  slices_S8x1024x1024_S1x1024x1024_6_0_0 : S8x1024x1024.Slices ![6, 0, 0] S1x1024x1024
  slices_S4096x8_S4096x1_0_7 : S4096x8.Slices ![0, 7] S4096x1
  slices_S8x1024x1024_S1x1024x1024_7_0_0 : S8x1024x1024.Slices ![7, 0, 0] S1x1024x1024
  transposes_S1024x1024_S1024x1024_1_0 : S1024x1024.Transposes [1, 0] S1024x1024
  dot_S4096x1024_S1024x256_S4096x256_1_0_0_1_n_n_wf : DotDims.WF S4096x1024 S1024x256 S4096x256 [1] [0] [0] [1] [] []
  dot_S4096x256_S256x8_S4096x8_1_0_0_1_n_n_wf : DotDims.WF S4096x256 S256x8 S4096x8 [1] [0] [0] [1] [] []
  dot_S4096x1024_S1024x1024_S4096x1024_1_0_0_1_n_n_wf : DotDims.WF S4096x1024 S1024x1024 S4096x1024 [1] [0] [0] [1] [] []

variable [Facts₀]

def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf
def dot_S4096x256_S256x8_S4096x8_1_0_0_1_n_n : DotDims S4096x256 S256x8 S4096x8 where
  lhsContracting := [1]
  rhsContracting := [0]
  lhsNonContracting := [0]
  rhsNonContracting := [1]
  lhsBatch := []
  rhsBatch := []
  wf := dot_S4096x256_S256x8_S4096x8_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf

class Facts : Prop extends Facts₀ where

variable [Facts]
-- ==== Proof.KernelFold.lean ====
/-
  The kernel body's arithmetic, folded into its repeated step.

  The printed body unrolls the eight task-vector updates; each is the same operation on a block of 512 rows,
  `t ← t + c_j · (t · M_j)`, with the coefficient column `j` of the block's coefficient array broadcast along the row
  and the matrix the slab `j` of the staged task matrices.  `blockStep` names that operation once and `blockProject`
  the closing product with the staged projection matrix, so that the stored payload is eight nested steps and a
  projection (`payload_fold`), for any float instance: the unrolled text and the nested one have the same terms.
-/
import proofs.«123341_j773094113739_1_alg».proof.Proof.Gen.KernelIdeal.Skeleton

noncomputable section

namespace Cert.KernelIdeal.Mix

open Cert.KernelIdeal Cert.KernelIdeal.Gen Idealize.ShloMosaic

variable {F : FTy → Type} [FloatOps F]

/-- The meta-net on a block of rows, `max (x · W1T + b1, 0) · W2T + b2`: the coefficient array `k0_pay2` without its
    intermediate names. -/
def blockCoef (x0 : Vec F S512x1024 .f32) (x1 : Vec F S1024x256 .bf16) (x2 : Vec F S1x256 .f32) (x3 : Vec F S256x8 .bf16)
    (x4 : Vec F S1x8 .f32) : FVec F S512x8 .f32 :=
  addf
    (matmul dot_S512x256_S256x8_S512x8_1_0_0_1_n_n none
      (truncf .bf16
        (maximumf
          (addf
            (matmul dot_S512x1024_S1024x256_S512x256_1_0_0_1_n_n none (truncf .bf16 x0 bitsLt_bf16_f32)
              (shapeCast S1024x256 x1 shapeCasts_S1024x256_S1024x256) (constant S512x256 .f32 0x00000000#32))
            (broadcastTo S512x256 (shapeCast S1x256 x2 shapeCasts_S1x256_S1x256) broadcasts_S1x256_S512x256))
          (broadcast S512x256 (Scalar.ofBits .f32 0x00000000#32)))
        bitsLt_bf16_f32)
      (shapeCast S256x8 x3 shapeCasts_S256x8_S256x8) (constant S512x8 .f32 0x00000000#32))
    (broadcastTo S512x8 (shapeCast S1x8 x4 shapeCasts_S1x8_S1x8) broadcasts_S1x8_S512x8)

theorem coef_fold (x0 : Vec F S512x1024 .f32) (x1 : Vec F S1024x256 .bf16) (x2 : Vec F S1x256 .f32) (x3 : Vec F S256x8 .bf16)
    (x4 : Vec F S1x8 .f32) : k0_pay2 x0 x1 x2 x3 x4 = blockCoef x0 x1 x2 x3 x4 := rfl

/-- One task-vector update of a block of rows: `t + c[:, j] · (t · M)`, `M` a staged `[1, 1024, 1024]` slab. -/
def blockStep (jn : Nat) (hs : S512x8.Slices ![0, jn] S512x1) (c : FVec F S512x8 .f32) (v : Vec F S1x1024x1024 .bf16)
    (t : FVec F S512x1024 .f32) : FVec F S512x1024 .f32 :=
  addf t (mulf (broadcastTo S512x1024 (extractStridedSlice S512x1 ![0, jn] c hs) broadcasts_S512x1_S512x1024)
    (matmul dot_S512x1024_S1024x1024_S512x1024_1_0_0_1_n_n none (truncf .bf16 t bitsLt_bf16_f32)
      (shapeCast S1024x1024 v shapeCasts_S1x1024x1024_S1024x1024) (constant S512x1024 .f32 0x00000000#32)))

/-- The closing projection of a block of rows: `t · WpT`. -/
def blockProject (w : Vec F S1024x1024 .bf16) (t : FVec F S512x1024 .f32) : FVec F S512x1024 .f32 :=
  matmul dot_S512x1024_S1024x1024_S512x1024_1_0_0_1_n_n none (truncf .bf16 t bitsLt_bf16_f32)
    (shapeCast S1024x1024 w shapeCasts_S1024x1024_S1024x1024) (constant S512x1024 .f32 0x00000000#32)

/-- The stored payload is the projection of eight nested steps from the block of features, every step with the
    block's coefficient array. -/
theorem payload_fold (x0 : Vec F S512x1024 .f32) (x1 : Vec F S1024x256 .bf16) (x2 : Vec F S1x256 .f32) (x3 : Vec F S256x8 .bf16)
    (x4 : Vec F S1x8 .f32) (u0 u1 u2 u3 u4 u5 u6 u7 : Vec F S1x1024x1024 .bf16) (x6 : Vec F S1024x1024 .bf16) :
    k0_pay1 (k0_pay2 x0 x1 x2 x3 x4)
        (k0_pay5 (k0_pay2 x0 x1 x2 x3 x4) (k0_pay3 x0 x1 x2 x3 x4 u0 u1) (k0_pay4 x0 x1 x2 x3 x4 u0 u1) u2 u3 u4 u5 u6)
        (k0_pay6 (k0_pay2 x0 x1 x2 x3 x4) (k0_pay3 x0 x1 x2 x3 x4 u0 u1) (k0_pay4 x0 x1 x2 x3 x4 u0 u1) u2 u3 u4 u5 u6) u7 x6
      = blockProject x6
          (blockStep 7 slices_S512x8_o0_7_S512x1 (blockCoef x0 x1 x2 x3 x4) u7
          (blockStep 6 slices_S512x8_o0_6_S512x1 (blockCoef x0 x1 x2 x3 x4) u6
          (blockStep 5 slices_S512x8_o0_5_S512x1 (blockCoef x0 x1 x2 x3 x4) u5
          (blockStep 4 slices_S512x8_o0_4_S512x1 (blockCoef x0 x1 x2 x3 x4) u4
          (blockStep 3 slices_S512x8_o0_3_S512x1 (blockCoef x0 x1 x2 x3 x4) u3
          (blockStep 2 slices_S512x8_o0_2_S512x1 (blockCoef x0 x1 x2 x3 x4) u2
          (blockStep 1 slices_S512x8_o0_1_S512x1 (blockCoef x0 x1 x2 x3 x4) u1
          (blockStep 0 slices_S512x8_o0_0_S512x1 (blockCoef x0 x1 x2 x3 x4) u0 x0)))))))) := rfl

end Cert.KernelIdeal.Mix

end
-- ==== Proof.Spec.lean ====
/-
  The mathematics both programs compute, one row of the batch at a time.

  A row `x` of the features is first sent through a two-layer meta-net: `metaHidden` is the rectified affine map
  `max (x · W1ᵀ + b1, 0)`, and `mixCoef` the affine map of the metaHidden row, `hid · W2ᵀ + b2`: eight mixing coefficients.
  The row is then updated eight times in order, `t ← t + c_j · (t · M_j)` (`taskStep`), with the eight task matrices,
  and at last projected, `t · Wpᵀ` (`projectRow`).  Every product of a row with a matrix is a finite sum over the
  contracted coordinate; nothing here depends on the order of a sum's terms or on the number of rows handled at once,
  which is all that separates the kernel (512 rows to a block) from the reference (all 4096 rows at once).

  The matrices enter as the two programs stage them, contracted coordinate first: `w1t k h = W1[h, k]`,
  `w2t h j = W2[j, h]`, `tm j k d = M_j[k, d]`, `wpt k d = Wp[d, k]`.  `G` is the whole result array as one function
  of the seven argument arrays, index by index.
-/
import Idealize.ShloMosaic.PureOps.Ideal
import Idealize.ShloMosaic.Lib.ValueIdx

noncomputable section

open scoped BigOperators

namespace Cert.TaskVectors

open Idealize.ShloMosaic Idealize.ShloMosaic.ValueIdx

/-- The meta-net's metaHidden row: `max (∑ₖ x k · W1[h, k] + b1 h, 0)` (the zero is the f32 zero word's value). -/
def metaHidden (w1t : Fin 1024 → Fin 256 → EReal) (b1 : Fin 256 → EReal) (x : Fin 1024 → EReal) (h : Fin 256) : EReal :=
  max ((∑ k : Fin 1024, x k * w1t k h) + b1 h) (Ideal.ofBits .f32 0x00000000#32)

/-- The eight mixing coefficients of a row: `∑ₕ hid h · W2[j, h] + b2 j`. -/
def mixCoef (w2t : Fin 256 → Fin 8 → EReal) (b2 : Fin 8 → EReal) (hid : Fin 256 → EReal) (j : Fin 8) : EReal :=
  (∑ h : Fin 256, hid h * w2t h j) + b2 j

/-- One task-vector update of a row: `t d + c · ∑ₖ t k · M[k, d]`. -/
def taskStep (c : EReal) (M : Fin 1024 → Fin 1024 → EReal) (t : Fin 1024 → EReal) (d : Fin 1024) : EReal :=
  t d + c * ∑ k : Fin 1024, t k * M k d

/-- The eight updates, in order, task 0 first. -/
def taskSteps (c : Fin 8 → EReal) (tm : Fin 8 → Fin 1024 → Fin 1024 → EReal) (x : Fin 1024 → EReal) : Fin 1024 → EReal :=
  taskStep (c 7) (tm 7) (taskStep (c 6) (tm 6) (taskStep (c 5) (tm 5) (taskStep (c 4) (tm 4) (taskStep (c 3) (tm 3) (taskStep (c 2) (tm 2)
    (taskStep (c 1) (tm 1) (taskStep (c 0) (tm 0) x)))))))

/-- The final projection of a row: `∑ₖ t k · Wp[d, k]`. -/
def projectRow (wpt : Fin 1024 → Fin 1024 → EReal) (t : Fin 1024 → EReal) (d : Fin 1024) : EReal :=
  ∑ k : Fin 1024, t k * wpt k d

/-- A whole row of the result from the row of the features it depends on. -/
def rowOut (w1t : Fin 1024 → Fin 256 → EReal) (b1 : Fin 256 → EReal) (w2t : Fin 256 → Fin 8 → EReal) (b2 : Fin 8 → EReal)
    (tm : Fin 8 → Fin 1024 → Fin 1024 → EReal) (wpt : Fin 1024 → Fin 1024 → EReal) (x : Fin 1024 → EReal) : Fin 1024 → EReal :=
  projectRow wpt (taskSteps (mixCoef w2t b2 (metaHidden w1t b1 x)) tm x)

/-- The result array as one function of the argument arrays: entry `(r, d)` is entry `d` of `rowOut` of row `r`. -/
def G (x : (⟨2, ![4096, 1024]⟩ : Shape).Idx → EReal) (W1 : (⟨2, ![256, 1024]⟩ : Shape).Idx → EReal)
    (b1 : (⟨1, ![256]⟩ : Shape).Idx → EReal) (W2 : (⟨2, ![8, 256]⟩ : Shape).Idx → EReal)
    (b2 : (⟨1, ![8]⟩ : Shape).Idx → EReal) (tm : (⟨3, ![8, 1024, 1024]⟩ : Shape).Idx → EReal)
    (Wp : (⟨2, ![1024, 1024]⟩ : Shape).Idx → EReal) : (⟨2, ![4096, 1024]⟩ : Shape).Idx → EReal :=
  fun i => rowOut (fun k h => W1 (ix2 h k)) (fun h => b1 (ix1 h)) (fun h j => W2 (ix2 j h)) (fun j => b2 (ix1 j))
    (fun j k d => tm (ix3 j k d)) (fun k d => Wp (ix2 d k)) (fun k => x (ix2 (i 0) k)) (i 1)

end Cert.TaskVectors

end
-- ==== Proof.KernelRows.lean ====
/-
  The kernel's block arithmetic read one row at a time, at the ideal values.

  At the extended reals every product of a block with a staged matrix is, entry by entry, the finite sum over the
  contracted coordinate (the three matmul shapes of the body: 1024 → 256, 256 → 8, 1024 → 1024), a change of float
  format is the identity, a column of the coefficients broadcast along the row reads that column's entry, and a
  `[1, 1024, 1024]` slab read as a matrix is the slab.  So row `p` of a block after one update depends on row `p`
  before it only, by `TaskVectors.taskStep`; likewise the coefficients (`mixCoef` of `metaHidden`) and the projection (`projectRow`).
  `payload_row`: entry `(p, q)` of the stored block is entry `q` of `TaskVectors.rowOut` of row `p` of the features' block.
-/
import proofs.«123341_j773094113739_1_alg».proof.Proof.KernelFold
import proofs.«123341_j773094113739_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Mix

open Cert.KernelIdeal Cert.KernelIdeal.Gen Idealize.ShloMosaic Idealize.ShloMosaic.ValueIdx Cert.TaskVectors

/-! ## The three products, entry by entry -/

theorem lhsA_0 (i : S512x256.Idx) (q : dot_S512x1024_S1024x256_S512x256_1_0_0_1_n_n.contr.Idx) :
    (dot_S512x1024_S1024x256_S512x256_1_0_0_1_n_n.lhsIdx i q 0).val = (i 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
theorem lhsA_1 (i : S512x256.Idx) (q : dot_S512x1024_S1024x256_S512x256_1_0_0_1_n_n.contr.Idx) :
    (dot_S512x1024_S1024x256_S512x256_1_0_0_1_n_n.lhsIdx i q 1).val = (q ⟨0, by decide⟩).val :=
  dot_S512x1024_S1024x256_S512x256_1_0_0_1_n_n.lhsIdx_val_of_single rfl i q
theorem rhsA_0 (i : S512x256.Idx) (q : dot_S512x1024_S1024x256_S512x256_1_0_0_1_n_n.contr.Idx) :
    (dot_S512x1024_S1024x256_S512x256_1_0_0_1_n_n.rhsIdx i q 0).val = (q ⟨0, by decide⟩).val :=
  dot_S512x1024_S1024x256_S512x256_1_0_0_1_n_n.rhsIdx_val_of_single rfl i q
theorem rhsA_1 (i : S512x256.Idx) (q : dot_S512x1024_S1024x256_S512x256_1_0_0_1_n_n.contr.Idx) :
    (dot_S512x1024_S1024x256_S512x256_1_0_0_1_n_n.rhsIdx i q 1).val = (i 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

/-- A block of 512 feature rows times the staged `W1T`: entry `(p, h)` is `∑ₖ a (p, k) · b (k, h)`. -/
theorem matmulA_apply (a : FVec Ideal S512x1024 .bf16) (b : FVec Ideal S1024x256 .bf16) (p : Fin 512) (h : Fin 256) :
    matmul dot_S512x1024_S1024x256_S512x256_1_0_0_1_n_n none a b (constant S512x256 .f32 0x00000000#32) (ix2 p h)
      = ∑ k : Fin 1024, a (ix2 p k) * b (ix2 k h) := by
  simp only [matmul]
  rw [Ideal.matmul_constant_zero_apply, ← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  have el : dot_S512x1024_S1024x256_S512x256_1_0_0_1_n_n.lhsIdx (ix2 p h) ((contrEquiv1 dot_S512x1024_S1024x256_S512x256_1_0_0_1_n_n 1024 rfl rfl).symm k) = ix2 p k := funext fun a => Fin.ext (by
    match a with
    | ⟨0, _⟩ => exact lhsA_0 _ _
    | ⟨1, _⟩ => exact (lhsA_1 _ _).trans hk)
  have er : dot_S512x1024_S1024x256_S512x256_1_0_0_1_n_n.rhsIdx (ix2 p h) ((contrEquiv1 dot_S512x1024_S1024x256_S512x256_1_0_0_1_n_n 1024 rfl rfl).symm k) = ix2 k h := funext fun a => Fin.ext (by
    match a with
    | ⟨0, _⟩ => exact (rhsA_0 _ _).trans hk
    | ⟨1, _⟩ => exact rhsA_1 _ _)
  rw [el, er]

theorem lhsB_0 (i : S512x8.Idx) (q : dot_S512x256_S256x8_S512x8_1_0_0_1_n_n.contr.Idx) :
    (dot_S512x256_S256x8_S512x8_1_0_0_1_n_n.lhsIdx i q 0).val = (i 0).val := by
  unfold DotDims.lhsIdx
  rw [dif_neg (show ¬(0 : Fin S512x256.rank) ∈ dot_S512x256_S256x8_S512x8_1_0_0_1_n_n.lhsBatch by decide), dif_pos (show (0 : Fin S512x256.rank) ∈ dot_S512x256_S256x8_S512x8_1_0_0_1_n_n.lhsNonContracting by decide)]
  rfl
theorem lhsB_1 (i : S512x8.Idx) (q : dot_S512x256_S256x8_S512x8_1_0_0_1_n_n.contr.Idx) :
    (dot_S512x256_S256x8_S512x8_1_0_0_1_n_n.lhsIdx i q 1).val = (q ⟨0, by decide⟩).val :=
  dot_S512x256_S256x8_S512x8_1_0_0_1_n_n.lhsIdx_val_of_single rfl i q
theorem rhsB_0 (i : S512x8.Idx) (q : dot_S512x256_S256x8_S512x8_1_0_0_1_n_n.contr.Idx) :
    (dot_S512x256_S256x8_S512x8_1_0_0_1_n_n.rhsIdx i q 0).val = (q ⟨0, by decide⟩).val :=
  dot_S512x256_S256x8_S512x8_1_0_0_1_n_n.rhsIdx_val_of_single rfl i q
theorem rhsB_1 (i : S512x8.Idx) (q : dot_S512x256_S256x8_S512x8_1_0_0_1_n_n.contr.Idx) :
    (dot_S512x256_S256x8_S512x8_1_0_0_1_n_n.rhsIdx i q 1).val = (i 1).val := by
  unfold DotDims.rhsIdx
  rw [dif_neg (show ¬(1 : Fin S256x8.rank) ∈ dot_S512x256_S256x8_S512x8_1_0_0_1_n_n.rhsBatch by decide), dif_pos (show (1 : Fin S256x8.rank) ∈ dot_S512x256_S256x8_S512x8_1_0_0_1_n_n.rhsNonContracting by decide)]
  rfl

/-- A block of 512 metaHidden rows times the staged `W2T`: entry `(p, j)` is `∑ₕ a (p, h) · b (h, j)`. -/
theorem matmulB_apply (a : FVec Ideal S512x256 .bf16) (b : FVec Ideal S256x8 .bf16) (p : Fin 512) (j : Fin 8) :
    matmul dot_S512x256_S256x8_S512x8_1_0_0_1_n_n none a b (constant S512x8 .f32 0x00000000#32) (ix2 p j)
      = ∑ h : Fin 256, a (ix2 p h) * b (ix2 h j) := by
  simp only [matmul]
  rw [Ideal.matmul_constant_zero_apply, ← Equiv.sum_comp (contrEquiv1 dot_S512x256_S256x8_S512x8_1_0_0_1_n_n 256 rfl rfl).symm]
  refine Finset.sum_congr rfl fun k _ => ?_
  have hk := contrEquiv1_symm_val dot_S512x256_S256x8_S512x8_1_0_0_1_n_n 256 rfl rfl k
  have el : dot_S512x256_S256x8_S512x8_1_0_0_1_n_n.lhsIdx (ix2 p j) ((contrEquiv1 dot_S512x256_S256x8_S512x8_1_0_0_1_n_n 256 rfl rfl).symm k) = ix2 p k := funext fun a => Fin.ext (by
    match a with
    | ⟨0, _⟩ => exact lhsB_0 _ _
    | ⟨1, _⟩ => exact (lhsB_1 _ _).trans hk)
  have er : dot_S512x256_S256x8_S512x8_1_0_0_1_n_n.rhsIdx (ix2 p j) ((contrEquiv1 dot_S512x256_S256x8_S512x8_1_0_0_1_n_n 256 rfl rfl).symm k) = ix2 k j := funext fun a => Fin.ext (by
    match a with
    | ⟨0, _⟩ => exact (rhsB_0 _ _).trans hk
    | ⟨1, _⟩ => exact rhsB_1 _ _)
  rw [el, er]

theorem lhsC_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhsC_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhsC_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhsC_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A block of 512 rows times a staged 1024 × 1024 matrix: entry `(p, d)` is `∑ₖ a (p, k) · b (k, d)`. -/
theorem matmulC_apply (a : FVec Ideal S512x1024 .bf16) (b : FVec Ideal S1024x1024 .bf16) (p : Fin 512) (d : Fin 1024) :
    matmul dot_S512x1024_S1024x1024_S512x1024_1_0_0_1_n_n none a b (constant S512x1024 .f32 0x00000000#32) (ix2 p d)
      = ∑ k : Fin 1024, a (ix2 p k) * b (ix2 k d) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p d) ((contrEquiv1 dot_S512x1024_S1024x1024_S512x1024_1_0_0_1_n_n 1024 rfl rfl).symm k) = ix2 p k := funext fun a => Fin.ext (by
    match a with
    | ⟨0, _⟩ => exact lhsC_0 _ _
    | ⟨1, _⟩ => exact (lhsC_1 _ _).trans hk)
  have er : dot_S512x1024_S1024x1024_S512x1024_1_0_0_1_n_n.rhsIdx (ix2 p d) ((contrEquiv1 dot_S512x1024_S1024x1024_S512x1024_1_0_0_1_n_n 1024 rfl rfl).symm k) = ix2 k d := funext fun a => Fin.ext (by
    match a with
    | ⟨0, _⟩ => exact (rhsC_0 _ _).trans hk
    | ⟨1, _⟩ => exact rhsC_1 _ _)
  rw [el, er]

/-! ## The layout pieces -/

/-- Column `j` of the coefficients, broadcast along the row, reads at `(p, q)` the coefficient `(p, j)`. -/
theorem coefColumn_apply (jn : Nat) (hj : jn < 8) (hs : S512x8.Slices ![0, jn] S512x1) (c : FVec Ideal S512x8 .f32)
    (p : Fin 512) (q : Fin 1024) :
    broadcastTo S512x1024 (extractStridedSlice S512x1 ![0, jn] c hs) broadcasts_S512x1_S512x1024 (ix2 p q) = c (ix2 p ⟨jn, hj⟩) := by
  refine (broadcastTo_apply _ broadcasts_S512x1_S512x1024 (ix2 p q) (ix2 p (0 : Fin 1)) (fun a => ?_)).trans ?_
  · match a with
    | ⟨0, _⟩ => show p.val = if (512 : Nat) = 1 then 0 else p.val; rw [if_neg (by decide)]
    | ⟨1, _⟩ => show (0 : Nat) = if (1 : Nat) = 1 then 0 else q.val; rw [if_pos rfl]
  · exact extractStridedSlice_apply ![0, jn] c hs (ix2 p (0 : Fin 1)) (ix2 p ⟨jn, hj⟩) (fun a => match a with
      | ⟨0, _⟩ => by show p.val = 0 + p.val; omega
      | ⟨1, _⟩ => by show jn = jn + 0; omega)

/-- A load of slab `j` of the staged task matrices reads, at `(0, k, d)`, the entry `(j, k, d)`. -/
theorem slab_apply (jn : Nat) (hj : jn < 8) (inb : ∀ a, (![jn, 0, 0] : Fin 3 → Nat) a + S1x1024x1024.size a ≤ S8x1024x1024.size a)
    (x5 : Vec Ideal S8x1024x1024 .bf16) (k d : Fin 1024) :
    View.ld x5 (Rect.unit (s := S8x1024x1024) ![jn, 0, 0] S1x1024x1024.size inb) (ix3 (0 : Fin 1) k d) = x5 (ix3 ⟨jn, hj⟩ k d) := by
  show x5 ((Rect.unit (s := S8x1024x1024) ![jn, 0, 0] S1x1024x1024.size inb).emb (ix3 (0 : Fin 1) k d)) = _
  refine congrArg x5 (funext fun a => Fin.ext ?_)
  match a with
  | ⟨0, _⟩ => show jn + 1 * 0 = jn; omega
  | ⟨1, _⟩ => show 0 + 1 * k.val = k.val; omega
  | ⟨2, _⟩ => show 0 + 1 * d.val = d.val; omega

/-! ## The stages, one row at a time -/

/-- Row `p` of the coefficient array is `mixCoef` of `metaHidden` of row `p` of the features' block. -/
theorem blockCoef_apply (x0 : Vec Ideal S512x1024 .f32) (x1 : Vec Ideal S1024x256 .bf16) (x2 : Vec Ideal S1x256 .f32)
    (x3 : Vec Ideal S256x8 .bf16) (x4 : Vec Ideal S1x8 .f32) (p : Fin 512) (j : Fin 8) :
    blockCoef (F := Ideal) x0 x1 x2 x3 x4 (ix2 p j)
      = mixCoef (fun h j => x3 (ix2 h j)) (fun j => x4 (ix2 (0 : Fin 1) j))
          (metaHidden (fun k h => x1 (ix2 k h)) (fun h => x2 (ix2 (0 : Fin 1) h)) (fun k => x0 (ix2 p k))) j := by
  unfold blockCoef mixCoef metaHidden
  rw [addf_apply, matmulB_apply, broadcastTo_1b_ab_apply]
  simp only [shapeCast_self, truncf_apply, maximumf_apply, addf_apply, matmulA_apply, broadcastTo_1b_ab_apply, broadcast_apply]
  rfl

/-- Row `p` after one update is `taskStep` of row `p` before it, with the row's coefficient `j` and the slab as a matrix. -/
theorem blockStep_row (jn : Nat) (hj : jn < 8) (hs : S512x8.Slices ![0, jn] S512x1) (c : FVec Ideal S512x8 .f32)
    (v : Vec Ideal S1x1024x1024 .bf16) (t : FVec Ideal S512x1024 .f32) (p : Fin 512) :
    (fun q => blockStep jn hs c v t (ix2 p q))
      = taskStep (c (ix2 p ⟨jn, hj⟩)) (fun k d => v (ix3 (0 : Fin 1) k d)) (fun k => t (ix2 p k)) := by
  funext q
  unfold blockStep taskStep
  rw [addf_apply, mulf_apply, matmulC_apply, coefColumn_apply jn hj]
  simp only [truncf_apply, shapeCast_1ab_ab_apply]

/-- Row `p` of the projected block is `projectRow` of row `p`. -/
theorem blockProject_row (w : Vec Ideal S1024x1024 .bf16) (t : FVec Ideal S512x1024 .f32) (p : Fin 512) :
    (fun q => blockProject w t (ix2 p q)) = projectRow (fun k d => w (ix2 k d)) (fun k => t (ix2 p k)) := by
  funext q
  unfold blockProject projectRow
  rw [matmulC_apply]
  simp only [truncf_apply, shapeCast_self]

/-- One link of the chain of updates: a step's row from the facts about its coefficient, its matrix and the row before. -/
theorem blockStep_link (jn : Nat) (hj : jn < 8) (hs : S512x8.Slices ![0, jn] S512x1) (c : FVec Ideal S512x8 .f32)
    (v : Vec Ideal S1x1024x1024 .bf16) (t : FVec Ideal S512x1024 .f32) (p : Fin 512)
    (cf : EReal) (M : Fin 1024 → Fin 1024 → EReal) (tr : Fin 1024 → EReal)
    (hc : c (ix2 p ⟨jn, hj⟩) = cf) (hM : (fun k d => v (ix3 (0 : Fin 1) k d)) = M) (ht : (fun k => t (ix2 p k)) = tr) :
    (fun q => blockStep jn hs c v t (ix2 p q)) = taskStep cf M tr := by
  rw [blockStep_row jn hj, hc, hM, ht]

/-- THE STORED BLOCK, ONE ENTRY: whatever the staged operands read entry by entry — `w1t`, `b1`, `w2t`, `b2`, the eight
    slabs as the task matrices `tm j`, `wpt`, and row `p` of the features' block as `xr` —, entry `(p, q)` of the payload
    is entry `q` of `rowOut` of that row. -/
theorem payload_row (x0 : Vec Ideal S512x1024 .f32) (x1 : Vec Ideal S1024x256 .bf16) (x2 : Vec Ideal S1x256 .f32)
    (x3 : Vec Ideal S256x8 .bf16) (x4 : Vec Ideal S1x8 .f32) (u0 u1 u2 u3 u4 u5 u6 u7 : Vec Ideal S1x1024x1024 .bf16)
    (x6 : Vec Ideal S1024x1024 .bf16) (p : Fin 512) (q : Fin 1024)
    (w1t : Fin 1024 → Fin 256 → EReal) (b1 : Fin 256 → EReal) (w2t : Fin 256 → Fin 8 → EReal) (b2 : Fin 8 → EReal)
    (tm : Fin 8 → Fin 1024 → Fin 1024 → EReal) (wpt : Fin 1024 → Fin 1024 → EReal) (xr : Fin 1024 → EReal)
    (h1 : ∀ k h, x1 (ix2 k h) = w1t k h) (h2 : ∀ h, x2 (ix2 (0 : Fin 1) h) = b1 h) (h3 : ∀ h j, x3 (ix2 h j) = w2t h j)
    (h4 : ∀ j, x4 (ix2 (0 : Fin 1) j) = b2 j)
    (hu0 : ∀ k d, u0 (ix3 (0 : Fin 1) k d) = tm 0 k d) (hu1 : ∀ k d, u1 (ix3 (0 : Fin 1) k d) = tm 1 k d)
    (hu2 : ∀ k d, u2 (ix3 (0 : Fin 1) k d) = tm 2 k d) (hu3 : ∀ k d, u3 (ix3 (0 : Fin 1) k d) = tm 3 k d)
    (hu4 : ∀ k d, u4 (ix3 (0 : Fin 1) k d) = tm 4 k d) (hu5 : ∀ k d, u5 (ix3 (0 : Fin 1) k d) = tm 5 k d)
    (hu6 : ∀ k d, u6 (ix3 (0 : Fin 1) k d) = tm 6 k d) (hu7 : ∀ k d, u7 (ix3 (0 : Fin 1) k d) = tm 7 k d)
    (h6 : ∀ k d, x6 (ix2 k d) = wpt k d) (h0 : ∀ k, x0 (ix2 p k) = xr k) :
    k0_pay1 (k0_pay2 x0 x1 x2 x3 x4)
        (k0_pay5 (k0_pay2 x0 x1 x2 x3 x4) (k0_pay3 x0 x1 x2 x3 x4 u0 u1) (k0_pay4 x0 x1 x2 x3 x4 u0 u1) u2 u3 u4 u5 u6)
        (k0_pay6 (k0_pay2 x0 x1 x2 x3 x4) (k0_pay3 x0 x1 x2 x3 x4 u0 u1) (k0_pay4 x0 x1 x2 x3 x4 u0 u1) u2 u3 u4 u5 u6) u7 x6
        (ix2 p q)
      = rowOut w1t b1 w2t b2 tm wpt xr q := by
  obtain rfl : (fun k h => x1 (ix2 k h)) = w1t := funext fun k => funext fun h => h1 k h
  obtain rfl : (fun h => x2 (ix2 (0 : Fin 1) h)) = b1 := funext h2
  obtain rfl : (fun h j => x3 (ix2 h j)) = w2t := funext fun h => funext fun j => h3 h j
  obtain rfl : (fun j => x4 (ix2 (0 : Fin 1) j)) = b2 := funext h4
  obtain rfl : (fun k d => x6 (ix2 k d)) = wpt := funext fun k => funext fun d => h6 k d
  obtain rfl : (fun k => x0 (ix2 p k)) = xr := funext h0
  rw [payload_fold]
  unfold rowOut taskSteps
  refine (congrFun (blockProject_row x6 _ p) q).trans (congrArg (fun t => projectRow _ t q) ?_)
  refine blockStep_link 7 (by decide) _ _ _ _ p _ _ _ (blockCoef_apply x0 x1 x2 x3 x4 p 7) (funext fun k => funext fun d => hu7 k d) ?_
  refine blockStep_link 6 (by decide) _ _ _ _ p _ _ _ (blockCoef_apply x0 x1 x2 x3 x4 p 6) (funext fun k => funext fun d => hu6 k d) ?_
  refine blockStep_link 5 (by decide) _ _ _ _ p _ _ _ (blockCoef_apply x0 x1 x2 x3 x4 p 5) (funext fun k => funext fun d => hu5 k d) ?_
  refine blockStep_link 4 (by decide) _ _ _ _ p _ _ _ (blockCoef_apply x0 x1 x2 x3 x4 p 4) (funext fun k => funext fun d => hu4 k d) ?_
  refine blockStep_link 3 (by decide) _ _ _ _ p _ _ _ (blockCoef_apply x0 x1 x2 x3 x4 p 3) (funext fun k => funext fun d => hu3 k d) ?_
  refine blockStep_link 2 (by decide) _ _ _ _ p _ _ _ (blockCoef_apply x0 x1 x2 x3 x4 p 2) (funext fun k => funext fun d => hu2 k d) ?_
  refine blockStep_link 1 (by decide) _ _ _ _ p _ _ _ (blockCoef_apply x0 x1 x2 x3 x4 p 1) (funext fun k => funext fun d => hu1 k d) ?_
  exact blockStep_link 0 (by decide) _ _ _ _ p _ _ _ (blockCoef_apply x0 x1 x2 x3 x4 p 0) (funext fun k => funext fun d => hu0 k d) rfl

end Cert.KernelIdeal.Mix

end
-- ==== Proof.KernelHost.lean ====
/-
  The staged operands, entry by entry.

  Before the region @main restages six of the seven arguments: `W1`, `W2` and `Wp` transposed, `b1` and `b2` given a leading
  unit axis, and every matrix narrowed to bf16 — which at the ideal values changes no entry.  So the array window 1 stages
  reads `W1[h, k]` at `(k, h)`, window 3's `W2[j, h]` at `(h, j)`, window 6's `Wp[d, k]` at `(k, d)`, windows 2 and 4
  the biases at `(0, ·)`, and window 5's is the stack of task matrices itself.
-/
import proofs.«123341_j773094113739_1_alg».proof.Proof.Gen.KernelIdeal.Frame
import Idealize.ShloMosaic.Lib.ValueIdx
import Idealize.ShloMosaic.Lib.ValueLayout
import Idealize.ShloMosaic.Lib.StableHlo.Run

noncomputable section

namespace Cert.KernelIdeal.Mix

open Cert.KernelIdeal Cert.KernelIdeal.Gen Idealize.ShloMosaic Idealize.ShloMosaic.TcCoe Idealize.ShloMosaic.ValueIdx
open Idealize.ShloMosaic.StableHlo Idealize.SL.Sem

variable (m : (ℓ : Loc nD τ sig) → Buf (Elt Ideal) ℓ)

/-- The staged `W1T` at `(k, h)` is `W1[h, k]`. -/
theorem staged_w1t (c : Dev nD) (k : Fin 1024) (h : Fin 256) :
    V m c main_v1 (ix2 k h) = m ((c : Thread nD τ).loc main_arg1) (ix2 h k) := by
  have e : (V m c main_v1 : S1024x256.Idx → EReal)
      = truncf (F := Ideal) .bf16 (transpose S1024x256 [1, 0] (m ((c : Thread nD τ).loc main_arg1)) transposes_S256x1024_S1024x256_1_0) bitsLt_bf16_f32 := by
    dsimp only [V, hostOps0]; after_results <;> try rfl
  rw [e, truncf_apply, transpose_ix2_apply]

/-- The staged `b1` row at `(0, h)` is `b1[h]`. -/
theorem staged_b1 (c : Dev nD) (h : Fin 256) :
    V m c main_v7 (ix2 (0 : Fin 1) h) = m ((c : Thread nD τ).loc main_arg2) (ix1 h) := by
  have e : (V m c main_v7 : S1x256.Idx → EReal) = shapeCast S1x256 (m ((c : Thread nD τ).loc main_arg2)) shapeCasts_S256_S1x256 := by
    dsimp only [V, hostOps0]; after_results <;> try rfl
  rw [e, shapeCast_a_1a_apply]

/-- The staged `W2T` at `(h, j)` is `W2[j, h]`. -/
theorem staged_w2t (c : Dev nD) (h : Fin 256) (j : Fin 8) :
    V m c main_v3 (ix2 h j) = m ((c : Thread nD τ).loc main_arg3) (ix2 j h) := by
  have e : (V m c main_v3 : S256x8.Idx → EReal)
      = truncf (F := Ideal) .bf16 (transpose S256x8 [1, 0] (m ((c : Thread nD τ).loc main_arg3)) transposes_S8x256_S256x8_1_0) bitsLt_bf16_f32 := by
    dsimp only [V, hostOps0]; after_results <;> try rfl
  rw [e, truncf_apply, transpose_ix2_apply]

/-- The staged `b2` row at `(0, j)` is `b2[j]`. -/
theorem staged_b2 (c : Dev nD) (j : Fin 8) :
    V m c main_v8 (ix2 (0 : Fin 1) j) = m ((c : Thread nD τ).loc main_arg4) (ix1 j) := by
  have e : (V m c main_v8 : S1x8.Idx → EReal) = shapeCast S1x8 (m ((c : Thread nD τ).loc main_arg4)) shapeCasts_S8_S1x8 := by
    dsimp only [V, hostOps0]; after_results <;> try rfl
  rw [e, shapeCast_a_1a_apply]

/-- The staged task matrices are the task matrices. -/
theorem staged_task (c : Dev nD) (j : Fin 8) (k d : Fin 1024) :
    V m c main_v4 (ix3 j k d) = m ((c : Thread nD τ).loc main_arg5) (ix3 j k d) := by
  have e : (V m c main_v4 : S8x1024x1024.Idx → EReal) = truncf (F := Ideal) .bf16 (m ((c : Thread nD τ).loc main_arg5)) bitsLt_bf16_f32 := by
    dsimp only [V, hostOps0]; after_results <;> try rfl
  rw [e, truncf_apply]

/-- The staged `WpT` at `(k, d)` is `Wp[d, k]`. -/
theorem staged_wpt (c : Dev nD) (k d : Fin 1024) :
    V m c main_v6 (ix2 k d) = m ((c : Thread nD τ).loc main_arg6) (ix2 d k) := by
  have e : (V m c main_v6 : S1024x1024.Idx → EReal)
      = truncf (F := Ideal) .bf16 (transpose S1024x1024 [1, 0] (m ((c : Thread nD τ).loc main_arg6)) transposes_S1024x1024_S1024x1024_1_0) bitsLt_bf16_f32 := by
    dsimp only [V, hostOps0]; after_results <;> try rfl
  rw [e, truncf_apply, transpose_ix2_apply]

end Cert.KernelIdeal.Mix

end
-- ==== Proof.KernelArray.lean ====
/-
  From the blocks to the whole result array.

  The grid has eight points; point `t` stages rows `512·t … 512·t + 511` of the features, the six weight operands whole,
  and writes back rows `512·t … 512·t + 511` of the result.  What it writes is the stored payload of the staged blocks,
  which entry by entry is `rowOut` of the entry's row (`payload_row`): the row of the features' block is the row
  `512·t + p` of the features, and the staged operands read the arguments' entries (the staged-operand lemmas).  So point
  `t` writes block `t` of `G` of the arguments (`written_block`); the eight blocks cover the array, row `r` lying in block
  `r / 512` (`covered`); hence the array ends at `G` (`final`), and the kernel's run ends there (`run`).
-/
import proofs.«123341_j773094113739_1_alg».proof.Proof.Gen.KernelIdeal.Value
import proofs.«123341_j773094113739_1_alg».proof.Proof.KernelRows
import proofs.«123341_j773094113739_1_alg».proof.Proof.KernelHost

noncomputable section

namespace Cert.KernelIdeal.Mix

open Cert.KernelIdeal Cert.KernelIdeal.Gen Cert.KernelIdeal.Value Idealize.ShloMosaic Idealize.ShloMosaic.TcCoe
open Idealize.ShloMosaic.ValueIdx Idealize.SL.Sem Cert.TaskVectors
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl

/-- Where each window's block sits at a point, decided over the eight points: the features' and the result's block index
    along the rows is the point's number; every other block index is zero. -/
theorem index_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 2) = 0 ∧ win0_6.index t (1 : Fin 2) = 0 :=
  (by decide +kernel : ∀ t : Fin grid0.N, _)

/-- Row `p` of point `t`'s block is row `512·t + p` of the array. -/
def rowAt (t : Fin cfg0.N) (p : Fin 512) : Fin 4096 :=
  ⟨t.val * 512 + p.val, by have h : t.val < 8 := Nat.lt_of_lt_of_eq t.isLt N_0; have := p.isLt; omega⟩

/-! ## The blocks read off their arrays -/

/-- The features' block at point `t` holds, at `(p, k)`, the features at `(512·t + p, k)`. -/
theorem feat_block (c : Dev nD) (t : Fin cfg0.N) (p : Fin 512) (k : Fin 1024) :
    iblk m c 0 t (ix2 p k) = m ((c : Thread nD τ).loc main_arg0) (ix2 (rowAt t p) k) := by
  rw [← V_main_arg0 m c]
  show V m c main_arg0 (((cfg0.win 0).blk t).view.emb (ix2 p k)) = V m c main_arg0 (ix2 (rowAt t p) k)
  refine congrArg _ (funext fun a => Fin.ext ?_)
  obtain ⟨e0, e1, -⟩ := index_facts t
  match a with
  | ⟨0, _⟩ => show win0_0.index t (0 : Fin 2) * 512 + 1 * p.val = t.val * 512 + p.val; rw [e0]; omega
  | ⟨1, _⟩ => show win0_0.index t (1 : Fin 2) * 1024 + 1 * k.val = k.val; rw [e1]; omega

/-- The staged `W1T` is staged whole at every point. -/
theorem w1t_block (c : Dev nD) (t : Fin cfg0.N) (k : Fin 1024) (h : Fin 256) :
    iblk m c 1 t (ix2 k h) = V m c main_v1 (ix2 k h) := by
  show V m c main_v1 (((cfg0.win 1).blk t).view.emb (ix2 k h)) = V m c main_v1 (ix2 k h)
  refine congrArg _ (funext fun a => Fin.ext ?_)
  obtain ⟨-, -, -, -, e0, e1, -⟩ := index_facts t
  match a with
  | ⟨0, _⟩ => show win0_1.index t (0 : Fin 2) * 1024 + 1 * k.val = k.val; rw [e0]; omega
  | ⟨1, _⟩ => show win0_1.index t (1 : Fin 2) * 256 + 1 * h.val = h.val; rw [e1]; omega

/-- The staged `b1` row likewise. -/
theorem b1_block (c : Dev nD) (t : Fin cfg0.N) (h : Fin 256) :
    iblk m c 2 t (ix2 (0 : Fin 1) h) = V m c main_v7 (ix2 (0 : Fin 1) h) := by
  show V m c main_v7 (((cfg0.win 2).blk t).view.emb (ix2 (0 : Fin 1) h)) = V m c main_v7 (ix2 (0 : Fin 1) h)
  refine congrArg _ (funext fun a => Fin.ext ?_)
  obtain ⟨-, -, -, -, -, -, e0, e1, -⟩ := index_facts t
  match a with
  | ⟨0, _⟩ => show win0_2.index t (0 : Fin 2) * 1 + 1 * 0 = 0; rw [e0]
  | ⟨1, _⟩ => show win0_2.index t (1 : Fin 2) * 256 + 1 * h.val = h.val; rw [e1]; omega

/-- The staged `W2T` likewise. -/
theorem w2t_block (c : Dev nD) (t : Fin cfg0.N) (h : Fin 256) (j : Fin 8) :
    iblk m c 3 t (ix2 h j) = V m c main_v3 (ix2 h j) := by
  show V m c main_v3 (((cfg0.win 3).blk t).view.emb (ix2 h j)) = V m c main_v3 (ix2 h j)
  refine congrArg _ (funext fun a => Fin.ext ?_)
  obtain ⟨-, -, -, -, -, -, -, -, e0, e1, -⟩ := index_facts t
  match a with
  | ⟨0, _⟩ => show win0_3.index t (0 : Fin 2) * 256 + 1 * h.val = h.val; rw [e0]; omega
  | ⟨1, _⟩ => show win0_3.index t (1 : Fin 2) * 8 + 1 * j.val = j.val; rw [e1]; omega

/-- The staged `b2` row likewise. -/
theorem b2_block (c : Dev nD) (t : Fin cfg0.N) (j : Fin 8) :
    iblk m c 4 t (ix2 (0 : Fin 1) j) = V m c main_v8 (ix2 (0 : Fin 1) j) := by
  show V m c main_v8 (((cfg0.win 4).blk t).view.emb (ix2 (0 : Fin 1) j)) = V m c main_v8 (ix2 (0 : Fin 1) j)
  refine congrArg _ (funext fun a => Fin.ext ?_)
  obtain ⟨-, -, -, -, -, -, -, -, -, -, e0, e1, -⟩ := index_facts t
  match a with
  | ⟨0, _⟩ => show win0_4.index t (0 : Fin 2) * 1 + 1 * 0 = 0; rw [e0]
  | ⟨1, _⟩ => show win0_4.index t (1 : Fin 2) * 8 + 1 * j.val = j.val; rw [e1]; omega

/-- The staged task matrices likewise. -/
theorem task_block (c : Dev nD) (t : Fin cfg0.N) (j : Fin 8) (k d : Fin 1024) :
    iblk m c 5 t (ix3 j k d) = V m c main_v4 (ix3 j k d) := by
  show V m c main_v4 (((cfg0.win 5).blk t).view.emb (ix3 j k d)) = V m c main_v4 (ix3 j k d)
  refine congrArg _ (funext fun a => Fin.ext ?_)
  obtain ⟨-, -, -, -, -, -, -, -, -, -, -, -, e0, e1, e2, -⟩ := index_facts t
  match a with
  | ⟨0, _⟩ => show win0_5.index t (0 : Fin 3) * 8 + 1 * j.val = j.val; rw [e0]; omega
  | ⟨1, _⟩ => show win0_5.index t (1 : Fin 3) * 1024 + 1 * k.val = k.val; rw [e1]; omega
  | ⟨2, _⟩ => show win0_5.index t (2 : Fin 3) * 1024 + 1 * d.val = d.val; rw [e2]; omega

/-- The staged `WpT` likewise. -/
theorem wpt_block (c : Dev nD) (t : Fin cfg0.N) (k d : Fin 1024) :
    iblk m c 6 t (ix2 k d) = V m c main_v6 (ix2 k d) := by
  show V m c main_v6 (((cfg0.win 6).blk t).view.emb (ix2 k d)) = V m c main_v6 (ix2 k d)
  refine congrArg _ (funext fun a => Fin.ext ?_)
  obtain ⟨-, -, -, -, -, -, -, -, -, -, -, -, -, -, -, e0, e1⟩ := index_facts t
  match a with
  | ⟨0, _⟩ => show win0_6.index t (0 : Fin 2) * 1024 + 1 * k.val = k.val; rw [e0]; omega
  | ⟨1, _⟩ => show win0_6.index t (1 : Fin 2) * 1024 + 1 * d.val = d.val; rw [e1]; omega

/-- Slab `j` loaded from the staged task matrices reads task matrix `j` of the argument. -/
theorem task_slab (c : Dev nD) (t : Fin cfg0.N) (jn : Nat) (hj : jn < 8)
    (inb : ∀ a, (![jn, 0, 0] : Fin 3 → Nat) a + S1x1024x1024.size a ≤ S8x1024x1024.size a) (k d : Fin 1024) :
    View.ld (iblk m c 5 t) (Rect.unit (s := S8x1024x1024) ![jn, 0, 0] S1x1024x1024.size inb) (ix3 (0 : Fin 1) k d)
      = m ((c : Thread nD τ).loc main_arg5) (ix3 ⟨jn, hj⟩ k d) :=
  (slab_apply jn hj inb (iblk m c 5 t) k d).trans ((task_block m c t ⟨jn, hj⟩ k d).trans (staged_task m c ⟨jn, hj⟩ k d))

/-! ## What a point writes, the cover, the array -/

/-- `G` of the seven argument arrays of core `c`. -/
abbrev Gm (c : Dev nD) : S4096x1024.Idx → EReal :=
  G (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- WHAT POINT `t` WRITES BACK is block `t` of `G` of the arguments. -/
theorem written_block (c : Dev nD) (t : Fin cfg0.N) :
    (dats m 0 c).flushed 7 t = ((cfg0.win 7).blk t).view.read (Elt Ideal) (Gm m c) := by
  rw [Value.flushed7]
  unfold out0_7
  rw [View.canon_unit_zero zero2]
  simp only [View.ld_unit_zero (S := S512x1024) zero2, View.ld_unit_zero (S := S1024x256) zero2, View.ld_unit_zero (S := S1x256) zero2,
    View.ld_unit_zero (S := S256x8) zero2, View.ld_unit_zero (S := S1x8) zero2, View.ld_unit_zero (S := S1024x1024) zero2]
  funext y
  obtain ⟨p, q, rfl⟩ : ∃ (p : Fin 512) (q : Fin 1024), (y : S512x1024.Idx) = ix2 p q := ⟨y 0, y 1, eq_ix2 y⟩
  have hemb : ((cfg0.win 7).blk t).view.emb (ix2 p q) = ix2 (rowAt t p) q := funext fun a => Fin.ext (by
    obtain ⟨-, -, e0, e1, -⟩ := index_facts t
    match a with
    | ⟨0, _⟩ => show win0_7.index t (0 : Fin 2) * 512 + 1 * p.val = t.val * 512 + p.val; rw [e0]; omega
    | ⟨1, _⟩ => show win0_7.index t (1 : Fin 2) * 1024 + 1 * q.val = q.val; rw [e1]; omega)
  show _ = Gm m c (((cfg0.win 7).blk t).view.emb (ix2 p q))
  rw [hemb]
  show _ = rowOut (fun k h => (m ((c : Thread nD τ).loc main_arg1)) (ix2 h k)) (fun h => (m ((c : Thread nD τ).loc main_arg2)) (ix1 h))
      (fun h j => (m ((c : Thread nD τ).loc main_arg3)) (ix2 j h)) (fun j => (m ((c : Thread nD τ).loc main_arg4)) (ix1 j))
      (fun j k d => (m ((c : Thread nD τ).loc main_arg5)) (ix3 j k d)) (fun k d => (m ((c : Thread nD τ).loc main_arg6)) (ix2 d k))
      (fun k => (m ((c : Thread nD τ).loc main_arg0)) (ix2 (rowAt t p) k)) q
  exact payload_row (iblk m c 0 t) (iblk m c 1 t) (iblk m c 2 t) (iblk m c 3 t) (iblk m c 4 t)
    (View.ld (iblk m c 5 t) r0_5) (View.ld (iblk m c 5 t) r0_6) (View.ld (iblk m c 5 t) r0_7) (View.ld (iblk m c 5 t) r0_8)
    (View.ld (iblk m c 5 t) r0_9) (View.ld (iblk m c 5 t) r0_10) (View.ld (iblk m c 5 t) r0_11) (View.ld (iblk m c 5 t) r0_12)
    (iblk m c 6 t) p q _ _ _ _ _ _ _
    (fun k h => (w1t_block m c t k h).trans (staged_w1t m c k h))
    (fun h => (b1_block m c t h).trans (staged_b1 m c h))
    (fun h j => (w2t_block m c t h j).trans (staged_w2t m c h j))
    (fun j => (b2_block m c t j).trans (staged_b2 m c j))
    (fun k d => task_slab m c t 0 (by decide) _ k d) (fun k d => task_slab m c t 1 (by decide) _ k d)
    (fun k d => task_slab m c t 2 (by decide) _ k d) (fun k d => task_slab m c t 3 (by decide) _ k d)
    (fun k d => task_slab m c t 4 (by decide) _ k d) (fun k d => task_slab m c t 5 (by decide) _ k d)
    (fun k d => task_slab m c t 6 (by decide) _ k d) (fun k d => task_slab m c t 7 (by decide) _ k d)
    (fun k d => (wpt_block m c t k d).trans (staged_wpt m c k d))
    (fun k => feat_block m c t p k)

/-- An index of the array is in point `t`'s block iff each coordinate is in the block's range on its axis. -/
theorem mem_block (t : Fin cfg0.N) (i : S4096x1024.Idx) :
    i ∈ ((cfg0.win 7).blk t).view.set ↔ ∀ a : Fin 2, win0_7.index t a * S512x1024.size a ≤ (i a).val
      ∧ (i a).val < win0_7.index t a * S512x1024.size a + S512x1024.size a := by
  show i ∈ ((View.whole main_v9).slice (win0_7.rect t)).set ↔ _
  rw [View.set_slice_whole, Rect.mem_set_unit]
  exact Iff.rfl

/-- Every index of the array is in the block of the point `row / 512`. -/
theorem covered (i : S4096x1024.Idx) :
    ∃ t : Fin cfg0.N, (cfg0.win 7).flush t = true ∧ i ∈ ((cfg0.win 7).blk t).view.set := by
  have hi0 : (i 0).val < 4096 := (i 0).isLt
  have hi1 : (i 1).val < 1024 := (i 1).isLt
  obtain ⟨t, ht⟩ : ∃ t : Fin cfg0.N, t.val = (i 0).val / 512 :=
    ⟨⟨(i 0).val / 512, by rw [show cfg0.N = 8 from N_0]; omega⟩, rfl⟩
  obtain ⟨-, -, e0, e1, -⟩ := index_facts t
  refine ⟨t, flush0_7 t, ?_⟩
  rw [mem_block]
  intro a
  match a with
  | ⟨0, _⟩ =>
    show win0_7.index t (0 : Fin 2) * 512 ≤ (i 0).val ∧ (i 0).val < win0_7.index t (0 : Fin 2) * 512 + 512
    rw [e0, ht]; omega
  | ⟨1, _⟩ =>
    show win0_7.index t (1 : Fin 2) * 1024 ≤ (i 1).val ∧ (i 1).val < win0_7.index t (1 : Fin 2) * 1024 + 1024
    rw [e1]; omega

/-- THE ARRAY after the run is `G` of the arguments. -/
theorem final (c : Dev nD) : (dats m 0 c).arrAt 7 cfg0.N = Gm m c :=
  (dats m 0 c).arrAt_eq_of_cover 7 (Gm m c) (fun t _ => written_block m c t) covered

/-- The kernel's run: the result array at `G` of the arguments, the arguments unchanged. -/
theorem run : θ_run defs (onTc (τ := τ) (main (F := Ideal))) ⟨m, fun _ => 0, ρ⟩ fun r => ∀ c : Dev nD,
      r.2.mem ((c : Thread nD τ).loc main_v9) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Mix

end
-- ==== Proof.RefStages.lean ====
/-
  The reference's result as named stages.

  `reference()` is the same mathematics on all 4096 rows at once: the coefficient array `coefArr`
  (`relu (x · W1ᵀ + b1) · W2ᵀ + b2`, 4096 × 8), then eight updates `t ← t + c[:, j] · (t · M_j)` in order
  (`hostStep`: column `j` of the coefficients broadcast along the row, `M_j` the slab `j` of the task matrices), then the
  product with `Wpᵀ` (`hostProject`).  Written out in full the result's term would hold every update's operand twice;
  as nested stages (`refOut`) each is named once.  For any float instance.
-/
import proofs.«123341_j773094113739_1_alg».proof.Proof.Gen.ReferenceIdeal

noncomputable section

namespace Cert.ReferenceIdeal.Mix

open Cert.ReferenceIdeal Cert.ReferenceIdeal.Gen Idealize.ShloMosaic

variable {F : FTy → Type} [FloatOps F]

/-- The meta-net on every row: `max (x · W1ᵀ + b1, 0) · W2ᵀ + b2`, each bias given a unit axis and then broadcast over the rows, the zero broadcast from a scalar. -/
def coefArr (x0 : Vec F S4096x1024 .f32) (x1 : Vec F S256x1024 .f32) (x2 : Vec F S256 .f32) (x3 : Vec F S8x256 .f32)
    (x4 : Vec F S8 .f32) : Vec F S4096x8 .f32 :=
  addf
    (Host.dotGeneral dot_S4096x256_S256x8_S4096x8_1_0_0_1_n_n none
      (maximumf
        (addf
          (Host.dotGeneral dot_S4096x1024_S1024x256_S4096x256_1_0_0_1_n_n none x0
            (transpose S1024x256 [1, 0] x1 transposes_S256x1024_S1024x256_1_0))
          (broadcastInDim S4096x256 ![0, 1] bcast_S1x256_S4096x256_0_1 (broadcastInDim S1x256 ![1] bcast_S256_S1x256_1 x2)))
        (broadcastInDim S4096x256 ![] bcast_S_S4096x256 (constant S_ .f32 0x00000000#32)))
      (transpose S256x8 [1, 0] x3 transposes_S8x256_S256x8_1_0))
    (broadcastInDim S4096x8 ![0, 1] bcast_S1x8_S4096x8_0_1 (broadcastInDim S1x8 ![1] bcast_S8_S1x8_1 x4))

/-- One task-vector update of all rows: `t + c[:, j] · (t · M_j)`. -/
def hostStep (jn : Nat) (hs : S4096x8.Slices ![0, jn] S4096x1) (hm : S8x1024x1024.Slices ![jn, 0, 0] S1x1024x1024)
    (c : Vec F S4096x8 .f32) (x5 : Vec F S8x1024x1024 .f32) (t : Vec F S4096x1024 .f32) : Vec F S4096x1024 .f32 :=
  addf t
    (mulf (broadcastInDim S4096x1024 ![0, 1] bcast_S4096x1_S4096x1024_0_1 (extractStridedSlice S4096x1 ![0, jn] c hs))
      (Host.dotGeneral dot_S4096x1024_S1024x1024_S4096x1024_1_0_0_1_n_n none t
        (shapeCast S1024x1024 (extractStridedSlice S1x1024x1024 ![jn, 0, 0] x5 hm) shapeCasts_S1x1024x1024_S1024x1024)))

/-- The closing projection of all rows: `t · Wpᵀ`. -/
def hostProject (x6 : Vec F S1024x1024 .f32) (t : Vec F S4096x1024 .f32) : Vec F S4096x1024 .f32 :=
  Host.dotGeneral dot_S4096x1024_S1024x1024_S4096x1024_1_0_0_1_n_n none t
    (transpose S1024x1024 [1, 0] x6 transposes_S1024x1024_S1024x1024_1_0)

/-- The reference's result: the projection of the eight updates, in order, of the features. -/
def refOut (x0 : Vec F S4096x1024 .f32) (x1 : Vec F S256x1024 .f32) (x2 : Vec F S256 .f32) (x3 : Vec F S8x256 .f32)
    (x4 : Vec F S8 .f32) (x5 : Vec F S8x1024x1024 .f32) (x6 : Vec F S1024x1024 .f32) : Vec F S4096x1024 .f32 :=
  hostProject x6
    (hostStep 7 slices_S4096x8_S4096x1_0_7 slices_S8x1024x1024_S1x1024x1024_7_0_0 (coefArr x0 x1 x2 x3 x4) x5
    (hostStep 6 slices_S4096x8_S4096x1_0_6 slices_S8x1024x1024_S1x1024x1024_6_0_0 (coefArr x0 x1 x2 x3 x4) x5
    (hostStep 5 slices_S4096x8_S4096x1_0_5 slices_S8x1024x1024_S1x1024x1024_5_0_0 (coefArr x0 x1 x2 x3 x4) x5
    (hostStep 4 slices_S4096x8_S4096x1_0_4 slices_S8x1024x1024_S1x1024x1024_4_0_0 (coefArr x0 x1 x2 x3 x4) x5
    (hostStep 3 slices_S4096x8_S4096x1_0_3 slices_S8x1024x1024_S1x1024x1024_3_0_0 (coefArr x0 x1 x2 x3 x4) x5
    (hostStep 2 slices_S4096x8_S4096x1_0_2 slices_S8x1024x1024_S1x1024x1024_2_0_0 (coefArr x0 x1 x2 x3 x4) x5
    (hostStep 1 slices_S4096x8_S4096x1_0_1 slices_S8x1024x1024_S1x1024x1024_1_0_0 (coefArr x0 x1 x2 x3 x4) x5
    (hostStep 0 slices_S4096x8_S4096x1_0_0 slices_S8x1024x1024_S1x1024x1024_0_0_0 (coefArr x0 x1 x2 x3 x4) x5 x0))))))))

end Cert.ReferenceIdeal.Mix

end
-- ==== Proof.RefStretches.lean ====
/- The meta-net's thirteen operations end in the coefficient array; each of the eight updates is seven operations (two
   slices, a reshape, the product, the broadcast, the scaling, the sum); the projection is two.  Read against a VARIABLE
   valuation `W`, a stretch leaves in its result buffer the stage's function (Proof/RefStages.lean) of what it found in
   the buffers it reads, and it leaves the coefficients, the task matrices and `Wp` where they were. -/
import proofs.«123341_j773094113739_1_alg».proof.Proof.RefOps
import proofs.«123341_j773094113739_1_alg».proof.Proof.RefStages

noncomputable section

namespace Cert.ReferenceIdeal.Mix

open Cert.ReferenceIdeal Cert.ReferenceIdeal.Gen Idealize.ShloMosaic Idealize.ShloMosaic.TcCoe Idealize.SL.Sem Idealize.ShloMosaic.StableHlo

variable {F : FTy → Type} [FloatOps F]

/-- The meta-net: operations 1–13, ending in the coefficient array `main_v10`. -/
abbrev headOps : List (HloOp τ sig (Elt F)) :=
  [ unary main_arg1 main_v0 ((transpose S1024x256 [1, 0] · transposes_S256x1024_S1024x256_1_0) : (⟨S256x1024, .f32⟩ : BufTy).Contents (Elt F) → (⟨S1024x256, .f32⟩ : BufTy).Contents (Elt F)),
    binary main_arg0 main_v0 main_v1 ((fun l r => Host.dotGeneral dot_S4096x1024_S1024x256_S4096x256_1_0_0_1_n_n none l r) : (⟨S4096x1024, .f32⟩ : BufTy).Contents (Elt F) → (⟨S1024x256, .f32⟩ : BufTy).Contents (Elt F) → (⟨S4096x256, .f32⟩ : BufTy).Contents (Elt F)),
    unary main_arg2 main_v2 (broadcastInDim S1x256 ![1] bcast_S256_S1x256_1 : (⟨S256, .f32⟩ : BufTy).Contents (Elt F) → (⟨S1x256, .f32⟩ : BufTy).Contents (Elt F)),
    unary main_v2 main_v3 (broadcastInDim S4096x256 ![0, 1] bcast_S1x256_S4096x256_0_1 : (⟨S1x256, .f32⟩ : BufTy).Contents (Elt F) → (⟨S4096x256, .f32⟩ : BufTy).Contents (Elt F)),
    binary main_v1 main_v3 main_v4 (addf : (⟨S4096x256, .f32⟩ : BufTy).Contents (Elt F) → (⟨S4096x256, .f32⟩ : BufTy).Contents (Elt F) → (⟨S4096x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4096x256, .f32⟩) main_call0_v0) (broadcastInDim S4096x256 ![] bcast_S_S4096x256),
    TRef.binary (TRef.of (T := ⟨S4096x256, .f32⟩) main_v4) (TRef.of (T := ⟨S4096x256, .f32⟩) main_call0_v0) (TRef.of (T := ⟨S4096x256, .f32⟩) main_v5) maximumf,
    unary main_arg3 main_v6 ((transpose S256x8 [1, 0] · transposes_S8x256_S256x8_1_0) : (⟨S8x256, .f32⟩ : BufTy).Contents (Elt F) → (⟨S256x8, .f32⟩ : BufTy).Contents (Elt F)),
    binary main_v5 main_v6 main_v7 ((fun l r => Host.dotGeneral dot_S4096x256_S256x8_S4096x8_1_0_0_1_n_n none l r) : (⟨S4096x256, .f32⟩ : BufTy).Contents (Elt F) → (⟨S256x8, .f32⟩ : BufTy).Contents (Elt F) → (⟨S4096x8, .f32⟩ : BufTy).Contents (Elt F)),
    unary main_arg4 main_v8 (broadcastInDim S1x8 ![1] bcast_S8_S1x8_1 : (⟨S8, .f32⟩ : BufTy).Contents (Elt F) → (⟨S1x8, .f32⟩ : BufTy).Contents (Elt F)),
    unary main_v8 main_v9 (broadcastInDim S4096x8 ![0, 1] bcast_S1x8_S4096x8_0_1 : (⟨S1x8, .f32⟩ : BufTy).Contents (Elt F) → (⟨S4096x8, .f32⟩ : BufTy).Contents (Elt F)),
    binary main_v7 main_v9 main_v10 (addf : (⟨S4096x8, .f32⟩ : BufTy).Contents (Elt F) → (⟨S4096x8, .f32⟩ : BufTy).Contents (Elt F) → (⟨S4096x8, .f32⟩ : BufTy).Contents (Elt F)) ]

/-- Update 0: seven operations from `main_arg0` to `main_v17`. -/
abbrev stepOps0 : List (HloOp τ sig (Elt F)) :=
  [ unary main_v10 main_v11 ((extractStridedSlice S4096x1 ![0, 0] · slices_S4096x8_S4096x1_0_0) : (⟨S4096x8, .f32⟩ : BufTy).Contents (Elt F) → (⟨S4096x1, .f32⟩ : BufTy).Contents (Elt F)),
    unary main_arg5 main_v12 ((extractStridedSlice S1x1024x1024 ![0, 0, 0] · slices_S8x1024x1024_S1x1024x1024_0_0_0) : (⟨S8x1024x1024, .f32⟩ : BufTy).Contents (Elt F) → (⟨S1x1024x1024, .f32⟩ : BufTy).Contents (Elt F)),
    reshape main_v12 main_v13 rfl shapeCasts_S1x1024x1024_S1024x1024,
    binary main_arg0 main_v13 main_v14 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_v11 main_v15 (broadcastInDim S4096x1024 ![0, 1] bcast_S4096x1_S4096x1024_0_1 : (⟨S4096x1, .f32⟩ : BufTy).Contents (Elt F) → (⟨S4096x1024, .f32⟩ : BufTy).Contents (Elt F)),
    binary main_v15 main_v14 main_v16 (mulf : (⟨S4096x1024, .f32⟩ : BufTy).Contents (Elt F) → (⟨S4096x1024, .f32⟩ : BufTy).Contents (Elt F) → (⟨S4096x1024, .f32⟩ : BufTy).Contents (Elt F)),
    binary main_arg0 main_v16 main_v17 (addf : (⟨S4096x1024, .f32⟩ : BufTy).Contents (Elt F) → (⟨S4096x1024, .f32⟩ : BufTy).Contents (Elt F) → (⟨S4096x1024, .f32⟩ : BufTy).Contents (Elt F)) ]

/-- Update 1: seven operations from `main_v17` to `main_v24`. -/
abbrev stepOps1 : List (HloOp τ sig (Elt F)) :=
  [ unary main_v10 main_v18 ((extractStridedSlice S4096x1 ![0, 1] · slices_S4096x8_S4096x1_0_1) : (⟨S4096x8, .f32⟩ : BufTy).Contents (Elt F) → (⟨S4096x1, .f32⟩ : BufTy).Contents (Elt F)),
    unary main_arg5 main_v19 ((extractStridedSlice S1x1024x1024 ![1, 0, 0] · slices_S8x1024x1024_S1x1024x1024_1_0_0) : (⟨S8x1024x1024, .f32⟩ : BufTy).Contents (Elt F) → (⟨S1x1024x1024, .f32⟩ : BufTy).Contents (Elt F)),
    reshape main_v19 main_v20 rfl shapeCasts_S1x1024x1024_S1024x1024,
    binary main_v17 main_v20 main_v21 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_v18 main_v22 (broadcastInDim S4096x1024 ![0, 1] bcast_S4096x1_S4096x1024_0_1 : (⟨S4096x1, .f32⟩ : BufTy).Contents (Elt F) → (⟨S4096x1024, .f32⟩ : BufTy).Contents (Elt F)),
    binary main_v22 main_v21 main_v23 (mulf : (⟨S4096x1024, .f32⟩ : BufTy).Contents (Elt F) → (⟨S4096x1024, .f32⟩ : BufTy).Contents (Elt F) → (⟨S4096x1024, .f32⟩ : BufTy).Contents (Elt F)),
    binary main_v17 main_v23 main_v24 (addf : (⟨S4096x1024, .f32⟩ : BufTy).Contents (Elt F) → (⟨S4096x1024, .f32⟩ : BufTy).Contents (Elt F) → (⟨S4096x1024, .f32⟩ : BufTy).Contents (Elt F)) ]

/-- Update 2: seven operations from `main_v24` to `main_v31`. -/
abbrev stepOps2 : List (HloOp τ sig (Elt F)) :=
  [ unary main_v10 main_v25 ((extractStridedSlice S4096x1 ![0, 2] · slices_S4096x8_S4096x1_0_2) : (⟨S4096x8, .f32⟩ : BufTy).Contents (Elt F) → (⟨S4096x1, .f32⟩ : BufTy).Contents (Elt F)),
    unary main_arg5 main_v26 ((extractStridedSlice S1x1024x1024 ![2, 0, 0] · slices_S8x1024x1024_S1x1024x1024_2_0_0) : (⟨S8x1024x1024, .f32⟩ : BufTy).Contents (Elt F) → (⟨S1x1024x1024, .f32⟩ : BufTy).Contents (Elt F)),
    reshape main_v26 main_v27 rfl shapeCasts_S1x1024x1024_S1024x1024,
    binary main_v24 main_v27 main_v28 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_v25 main_v29 (broadcastInDim S4096x1024 ![0, 1] bcast_S4096x1_S4096x1024_0_1 : (⟨S4096x1, .f32⟩ : BufTy).Contents (Elt F) → (⟨S4096x1024, .f32⟩ : BufTy).Contents (Elt F)),
    binary main_v29 main_v28 main_v30 (mulf : (⟨S4096x1024, .f32⟩ : BufTy).Contents (Elt F) → (⟨S4096x1024, .f32⟩ : BufTy).Contents (Elt F) → (⟨S4096x1024, .f32⟩ : BufTy).Contents (Elt F)),
    binary main_v24 main_v30 main_v31 (addf : (⟨S4096x1024, .f32⟩ : BufTy).Contents (Elt F) → (⟨S4096x1024, .f32⟩ : BufTy).Contents (Elt F) → (⟨S4096x1024, .f32⟩ : BufTy).Contents (Elt F)) ]

/-- Update 3: seven operations from `main_v31` to `main_v38`. -/
abbrev stepOps3 : List (HloOp τ sig (Elt F)) :=
  [ unary main_v10 main_v32 ((extractStridedSlice S4096x1 ![0, 3] · slices_S4096x8_S4096x1_0_3) : (⟨S4096x8, .f32⟩ : BufTy).Contents (Elt F) → (⟨S4096x1, .f32⟩ : BufTy).Contents (Elt F)),
    unary main_arg5 main_v33 ((extractStridedSlice S1x1024x1024 ![3, 0, 0] · slices_S8x1024x1024_S1x1024x1024_3_0_0) : (⟨S8x1024x1024, .f32⟩ : BufTy).Contents (Elt F) → (⟨S1x1024x1024, .f32⟩ : BufTy).Contents (Elt F)),
    reshape main_v33 main_v34 rfl shapeCasts_S1x1024x1024_S1024x1024,
    binary main_v31 main_v34 main_v35 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_v32 main_v36 (broadcastInDim S4096x1024 ![0, 1] bcast_S4096x1_S4096x1024_0_1 : (⟨S4096x1, .f32⟩ : BufTy).Contents (Elt F) → (⟨S4096x1024, .f32⟩ : BufTy).Contents (Elt F)),
    binary main_v36 main_v35 main_v37 (mulf : (⟨S4096x1024, .f32⟩ : BufTy).Contents (Elt F) → (⟨S4096x1024, .f32⟩ : BufTy).Contents (Elt F) → (⟨S4096x1024, .f32⟩ : BufTy).Contents (Elt F)),
    binary main_v31 main_v37 main_v38 (addf : (⟨S4096x1024, .f32⟩ : BufTy).Contents (Elt F) → (⟨S4096x1024, .f32⟩ : BufTy).Contents (Elt F) → (⟨S4096x1024, .f32⟩ : BufTy).Contents (Elt F)) ]

/-- Update 4: seven operations from `main_v38` to `main_v45`. -/
abbrev stepOps4 : List (HloOp τ sig (Elt F)) :=
  [ unary main_v10 main_v39 ((extractStridedSlice S4096x1 ![0, 4] · slices_S4096x8_S4096x1_0_4) : (⟨S4096x8, .f32⟩ : BufTy).Contents (Elt F) → (⟨S4096x1, .f32⟩ : BufTy).Contents (Elt F)),
    unary main_arg5 main_v40 ((extractStridedSlice S1x1024x1024 ![4, 0, 0] · slices_S8x1024x1024_S1x1024x1024_4_0_0) : (⟨S8x1024x1024, .f32⟩ : BufTy).Contents (Elt F) → (⟨S1x1024x1024, .f32⟩ : BufTy).Contents (Elt F)),
    reshape main_v40 main_v41 rfl shapeCasts_S1x1024x1024_S1024x1024,
    binary main_v38 main_v41 main_v42 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_v39 main_v43 (broadcastInDim S4096x1024 ![0, 1] bcast_S4096x1_S4096x1024_0_1 : (⟨S4096x1, .f32⟩ : BufTy).Contents (Elt F) → (⟨S4096x1024, .f32⟩ : BufTy).Contents (Elt F)),
    binary main_v43 main_v42 main_v44 (mulf : (⟨S4096x1024, .f32⟩ : BufTy).Contents (Elt F) → (⟨S4096x1024, .f32⟩ : BufTy).Contents (Elt F) → (⟨S4096x1024, .f32⟩ : BufTy).Contents (Elt F)),
    binary main_v38 main_v44 main_v45 (addf : (⟨S4096x1024, .f32⟩ : BufTy).Contents (Elt F) → (⟨S4096x1024, .f32⟩ : BufTy).Contents (Elt F) → (⟨S4096x1024, .f32⟩ : BufTy).Contents (Elt F)) ]

/-- Update 5: seven operations from `main_v45` to `main_v52`. -/
abbrev stepOps5 : List (HloOp τ sig (Elt F)) :=
  [ unary main_v10 main_v46 ((extractStridedSlice S4096x1 ![0, 5] · slices_S4096x8_S4096x1_0_5) : (⟨S4096x8, .f32⟩ : BufTy).Contents (Elt F) → (⟨S4096x1, .f32⟩ : BufTy).Contents (Elt F)),
    unary main_arg5 main_v47 ((extractStridedSlice S1x1024x1024 ![5, 0, 0] · slices_S8x1024x1024_S1x1024x1024_5_0_0) : (⟨S8x1024x1024, .f32⟩ : BufTy).Contents (Elt F) → (⟨S1x1024x1024, .f32⟩ : BufTy).Contents (Elt F)),
    reshape main_v47 main_v48 rfl shapeCasts_S1x1024x1024_S1024x1024,
    binary main_v45 main_v48 main_v49 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_v46 main_v50 (broadcastInDim S4096x1024 ![0, 1] bcast_S4096x1_S4096x1024_0_1 : (⟨S4096x1, .f32⟩ : BufTy).Contents (Elt F) → (⟨S4096x1024, .f32⟩ : BufTy).Contents (Elt F)),
    binary main_v50 main_v49 main_v51 (mulf : (⟨S4096x1024, .f32⟩ : BufTy).Contents (Elt F) → (⟨S4096x1024, .f32⟩ : BufTy).Contents (Elt F) → (⟨S4096x1024, .f32⟩ : BufTy).Contents (Elt F)),
    binary main_v45 main_v51 main_v52 (addf : (⟨S4096x1024, .f32⟩ : BufTy).Contents (Elt F) → (⟨S4096x1024, .f32⟩ : BufTy).Contents (Elt F) → (⟨S4096x1024, .f32⟩ : BufTy).Contents (Elt F)) ]

/-- Update 6: seven operations from `main_v52` to `main_v59`. -/
abbrev stepOps6 : List (HloOp τ sig (Elt F)) :=
  [ unary main_v10 main_v53 ((extractStridedSlice S4096x1 ![0, 6] · slices_S4096x8_S4096x1_0_6) : (⟨S4096x8, .f32⟩ : BufTy).Contents (Elt F) → (⟨S4096x1, .f32⟩ : BufTy).Contents (Elt F)),
    unary main_arg5 main_v54 ((extractStridedSlice S1x1024x1024 ![6, 0, 0] · slices_S8x1024x1024_S1x1024x1024_6_0_0) : (⟨S8x1024x1024, .f32⟩ : BufTy).Contents (Elt F) → (⟨S1x1024x1024, .f32⟩ : BufTy).Contents (Elt F)),
    reshape main_v54 main_v55 rfl shapeCasts_S1x1024x1024_S1024x1024,
    binary main_v52 main_v55 main_v56 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_v53 main_v57 (broadcastInDim S4096x1024 ![0, 1] bcast_S4096x1_S4096x1024_0_1 : (⟨S4096x1, .f32⟩ : BufTy).Contents (Elt F) → (⟨S4096x1024, .f32⟩ : BufTy).Contents (Elt F)),
    binary main_v57 main_v56 main_v58 (mulf : (⟨S4096x1024, .f32⟩ : BufTy).Contents (Elt F) → (⟨S4096x1024, .f32⟩ : BufTy).Contents (Elt F) → (⟨S4096x1024, .f32⟩ : BufTy).Contents (Elt F)),
    binary main_v52 main_v58 main_v59 (addf : (⟨S4096x1024, .f32⟩ : BufTy).Contents (Elt F) → (⟨S4096x1024, .f32⟩ : BufTy).Contents (Elt F) → (⟨S4096x1024, .f32⟩ : BufTy).Contents (Elt F)) ]

/-- Update 7: seven operations from `main_v59` to `main_v66`. -/
abbrev stepOps7 : List (HloOp τ sig (Elt F)) :=
  [ unary main_v10 main_v60 ((extractStridedSlice S4096x1 ![0, 7] · slices_S4096x8_S4096x1_0_7) : (⟨S4096x8, .f32⟩ : BufTy).Contents (Elt F) → (⟨S4096x1, .f32⟩ : BufTy).Contents (Elt F)),
    unary main_arg5 main_v61 ((extractStridedSlice S1x1024x1024 ![7, 0, 0] · slices_S8x1024x1024_S1x1024x1024_7_0_0) : (⟨S8x1024x1024, .f32⟩ : BufTy).Contents (Elt F) → (⟨S1x1024x1024, .f32⟩ : BufTy).Contents (Elt F)),
    reshape main_v61 main_v62 rfl shapeCasts_S1x1024x1024_S1024x1024,
    binary main_v59 main_v62 main_v63 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_v60 main_v64 (broadcastInDim S4096x1024 ![0, 1] bcast_S4096x1_S4096x1024_0_1 : (⟨S4096x1, .f32⟩ : BufTy).Contents (Elt F) → (⟨S4096x1024, .f32⟩ : BufTy).Contents (Elt F)),
    binary main_v64 main_v63 main_v65 (mulf : (⟨S4096x1024, .f32⟩ : BufTy).Contents (Elt F) → (⟨S4096x1024, .f32⟩ : BufTy).Contents (Elt F) → (⟨S4096x1024, .f32⟩ : BufTy).Contents (Elt F)),
    binary main_v59 main_v65 main_v66 (addf : (⟨S4096x1024, .f32⟩ : BufTy).Contents (Elt F) → (⟨S4096x1024, .f32⟩ : BufTy).Contents (Elt F) → (⟨S4096x1024, .f32⟩ : BufTy).Contents (Elt F)) ]

/-- The projection: the transpose of `Wp` and the closing product. -/
abbrev tailOps : List (HloOp τ sig (Elt F)) :=
  [ unary main_arg6 main_v67 ((transpose S1024x1024 [1, 0] · transposes_S1024x1024_S1024x1024_1_0) : (⟨S1024x1024, .f32⟩ : BufTy).Contents (Elt F) → (⟨S1024x1024, .f32⟩ : BufTy).Contents (Elt F)),
    binary main_v66 main_v67 main_v68 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)) ]

/-- The stretches, in order, are the whole line. -/
theorem ops_split : (ValueP.ops : List (HloOp τ sig (Elt F)))
    = headOps ++ (stepOps0 ++ (stepOps1 ++ (stepOps2 ++ (stepOps3 ++ (stepOps4 ++ (stepOps5 ++ (stepOps6 ++ (stepOps7 ++ tailOps)))))))) := rfl

/-- The meta-net's stretch leaves the coefficient array at `coefArr` of the five arguments it reads. -/
theorem head_res (W : Valuation τ sig (Elt F)) :
    after headOps W (Proc.devRef .tc main_v10)
      = coefArr (W (Proc.devRef .tc main_arg0)) (W (Proc.devRef .tc main_arg1)) (W (Proc.devRef .tc main_arg2))
          (W (Proc.devRef .tc main_arg3)) (W (Proc.devRef .tc main_arg4)) := by
  after_results_simp <;> rfl

/-- … and the features, the task matrices and `Wp` where they were. -/
theorem head_keep (W : Valuation τ sig (Elt F)) :
    after headOps W (Proc.devRef .tc main_arg0) = W (Proc.devRef .tc main_arg0) ∧ after headOps W (Proc.devRef .tc main_arg5) = W (Proc.devRef .tc main_arg5)
      ∧ after headOps W (Proc.devRef .tc main_arg6) = W (Proc.devRef .tc main_arg6) :=
  ⟨by after_results_simp, by after_results_simp, by after_results_simp⟩

/-- Update 0's stretch leaves `main_v17` at `hostStep 0` of the coefficients, the task matrices and `main_arg0` as it found them. -/
theorem step0_res (W : Valuation τ sig (Elt F)) :
    after stepOps0 W (Proc.devRef .tc main_v17)
      = hostStep 0 slices_S4096x8_S4096x1_0_0 slices_S8x1024x1024_S1x1024x1024_0_0_0 (W (Proc.devRef .tc main_v10))
          (W (Proc.devRef .tc main_arg5)) (W (Proc.devRef .tc main_arg0)) := by
  after_results_simp <;> rfl

/-- … and the coefficients, the task matrices and `Wp` where they were. -/
theorem step0_keep (W : Valuation τ sig (Elt F)) :
    after stepOps0 W (Proc.devRef .tc main_v10) = W (Proc.devRef .tc main_v10) ∧ after stepOps0 W (Proc.devRef .tc main_arg5) = W (Proc.devRef .tc main_arg5)
      ∧ after stepOps0 W (Proc.devRef .tc main_arg6) = W (Proc.devRef .tc main_arg6) :=
  ⟨by after_results_simp, by after_results_simp, by after_results_simp⟩

/-- Update 1's stretch leaves `main_v24` at `hostStep 1` of the coefficients, the task matrices and `main_v17` as it found them. -/
theorem step1_res (W : Valuation τ sig (Elt F)) :
    after stepOps1 W (Proc.devRef .tc main_v24)
      = hostStep 1 slices_S4096x8_S4096x1_0_1 slices_S8x1024x1024_S1x1024x1024_1_0_0 (W (Proc.devRef .tc main_v10))
          (W (Proc.devRef .tc main_arg5)) (W (Proc.devRef .tc main_v17)) := by
  after_results_simp <;> rfl

/-- … and the coefficients, the task matrices and `Wp` where they were. -/
theorem step1_keep (W : Valuation τ sig (Elt F)) :
    after stepOps1 W (Proc.devRef .tc main_v10) = W (Proc.devRef .tc main_v10) ∧ after stepOps1 W (Proc.devRef .tc main_arg5) = W (Proc.devRef .tc main_arg5)
      ∧ after stepOps1 W (Proc.devRef .tc main_arg6) = W (Proc.devRef .tc main_arg6) :=
  ⟨by after_results_simp, by after_results_simp, by after_results_simp⟩

/-- Update 2's stretch leaves `main_v31` at `hostStep 2` of the coefficients, the task matrices and `main_v24` as it found them. -/
theorem step2_res (W : Valuation τ sig (Elt F)) :
    after stepOps2 W (Proc.devRef .tc main_v31)
      = hostStep 2 slices_S4096x8_S4096x1_0_2 slices_S8x1024x1024_S1x1024x1024_2_0_0 (W (Proc.devRef .tc main_v10))
          (W (Proc.devRef .tc main_arg5)) (W (Proc.devRef .tc main_v24)) := by
  after_results_simp <;> rfl

/-- … and the coefficients, the task matrices and `Wp` where they were. -/
theorem step2_keep (W : Valuation τ sig (Elt F)) :
    after stepOps2 W (Proc.devRef .tc main_v10) = W (Proc.devRef .tc main_v10) ∧ after stepOps2 W (Proc.devRef .tc main_arg5) = W (Proc.devRef .tc main_arg5)
      ∧ after stepOps2 W (Proc.devRef .tc main_arg6) = W (Proc.devRef .tc main_arg6) :=
  ⟨by after_results_simp, by after_results_simp, by after_results_simp⟩

/-- Update 3's stretch leaves `main_v38` at `hostStep 3` of the coefficients, the task matrices and `main_v31` as it found them. -/
theorem step3_res (W : Valuation τ sig (Elt F)) :
    after stepOps3 W (Proc.devRef .tc main_v38)
      = hostStep 3 slices_S4096x8_S4096x1_0_3 slices_S8x1024x1024_S1x1024x1024_3_0_0 (W (Proc.devRef .tc main_v10))
          (W (Proc.devRef .tc main_arg5)) (W (Proc.devRef .tc main_v31)) := by
  after_results_simp <;> rfl

/-- … and the coefficients, the task matrices and `Wp` where they were. -/
theorem step3_keep (W : Valuation τ sig (Elt F)) :
    after stepOps3 W (Proc.devRef .tc main_v10) = W (Proc.devRef .tc main_v10) ∧ after stepOps3 W (Proc.devRef .tc main_arg5) = W (Proc.devRef .tc main_arg5)
      ∧ after stepOps3 W (Proc.devRef .tc main_arg6) = W (Proc.devRef .tc main_arg6) :=
  ⟨by after_results_simp, by after_results_simp, by after_results_simp⟩

/-- Update 4's stretch leaves `main_v45` at `hostStep 4` of the coefficients, the task matrices and `main_v38` as it found them. -/
theorem step4_res (W : Valuation τ sig (Elt F)) :
    after stepOps4 W (Proc.devRef .tc main_v45)
      = hostStep 4 slices_S4096x8_S4096x1_0_4 slices_S8x1024x1024_S1x1024x1024_4_0_0 (W (Proc.devRef .tc main_v10))
          (W (Proc.devRef .tc main_arg5)) (W (Proc.devRef .tc main_v38)) := by
  after_results_simp <;> rfl

/-- … and the coefficients, the task matrices and `Wp` where they were. -/
theorem step4_keep (W : Valuation τ sig (Elt F)) :
    after stepOps4 W (Proc.devRef .tc main_v10) = W (Proc.devRef .tc main_v10) ∧ after stepOps4 W (Proc.devRef .tc main_arg5) = W (Proc.devRef .tc main_arg5)
      ∧ after stepOps4 W (Proc.devRef .tc main_arg6) = W (Proc.devRef .tc main_arg6) :=
  ⟨by after_results_simp, by after_results_simp, by after_results_simp⟩

/-- Update 5's stretch leaves `main_v52` at `hostStep 5` of the coefficients, the task matrices and `main_v45` as it found them. -/
theorem step5_res (W : Valuation τ sig (Elt F)) :
    after stepOps5 W (Proc.devRef .tc main_v52)
      = hostStep 5 slices_S4096x8_S4096x1_0_5 slices_S8x1024x1024_S1x1024x1024_5_0_0 (W (Proc.devRef .tc main_v10))
          (W (Proc.devRef .tc main_arg5)) (W (Proc.devRef .tc main_v45)) := by
  after_results_simp <;> rfl

/-- … and the coefficients, the task matrices and `Wp` where they were. -/
theorem step5_keep (W : Valuation τ sig (Elt F)) :
    after stepOps5 W (Proc.devRef .tc main_v10) = W (Proc.devRef .tc main_v10) ∧ after stepOps5 W (Proc.devRef .tc main_arg5) = W (Proc.devRef .tc main_arg5)
      ∧ after stepOps5 W (Proc.devRef .tc main_arg6) = W (Proc.devRef .tc main_arg6) :=
  ⟨by after_results_simp, by after_results_simp, by after_results_simp⟩

/-- Update 6's stretch leaves `main_v59` at `hostStep 6` of the coefficients, the task matrices and `main_v52` as it found them. -/
theorem step6_res (W : Valuation τ sig (Elt F)) :
    after stepOps6 W (Proc.devRef .tc main_v59)
      = hostStep 6 slices_S4096x8_S4096x1_0_6 slices_S8x1024x1024_S1x1024x1024_6_0_0 (W (Proc.devRef .tc main_v10))
          (W (Proc.devRef .tc main_arg5)) (W (Proc.devRef .tc main_v52)) := by
  after_results_simp <;> rfl

/-- … and the coefficients, the task matrices and `Wp` where they were. -/
theorem step6_keep (W : Valuation τ sig (Elt F)) :
    after stepOps6 W (Proc.devRef .tc main_v10) = W (Proc.devRef .tc main_v10) ∧ after stepOps6 W (Proc.devRef .tc main_arg5) = W (Proc.devRef .tc main_arg5)
      ∧ after stepOps6 W (Proc.devRef .tc main_arg6) = W (Proc.devRef .tc main_arg6) :=
  ⟨by after_results_simp, by after_results_simp, by after_results_simp⟩

/-- Update 7's stretch leaves `main_v66` at `hostStep 7` of the coefficients, the task matrices and `main_v59` as it found them. -/
theorem step7_res (W : Valuation τ sig (Elt F)) :
    after stepOps7 W (Proc.devRef .tc main_v66)
      = hostStep 7 slices_S4096x8_S4096x1_0_7 slices_S8x1024x1024_S1x1024x1024_7_0_0 (W (Proc.devRef .tc main_v10))
          (W (Proc.devRef .tc main_arg5)) (W (Proc.devRef .tc main_v59)) := by
  after_results_simp <;> rfl

/-- … and the coefficients, the task matrices and `Wp` where they were. -/
theorem step7_keep (W : Valuation τ sig (Elt F)) :
    after stepOps7 W (Proc.devRef .tc main_v10) = W (Proc.devRef .tc main_v10) ∧ after stepOps7 W (Proc.devRef .tc main_arg5) = W (Proc.devRef .tc main_arg5)
      ∧ after stepOps7 W (Proc.devRef .tc main_arg6) = W (Proc.devRef .tc main_arg6) :=
  ⟨by after_results_simp, by after_results_simp, by after_results_simp⟩

/-- The projection's stretch leaves the result at `hostProject` of `Wp` and the last update's rows. -/
theorem tail_res (W : Valuation τ sig (Elt F)) :
    after tailOps W (Proc.devRef .tc main_v68) = hostProject (W (Proc.devRef .tc main_arg6)) (W (Proc.devRef .tc main_v66)) := by
  after_results_simp <;> rfl

end Cert.ReferenceIdeal.Mix

end
-- ==== Proof.RefRun.lean ====
/-
  The reference's run, read back stage by stage.

  `reference()` prints as a straight line of 71 host operations.  Each of the eight updates reads the row array before it
  twice (in the product and in the sum), so the result's term with every operand written out doubles at each update.  Here
  the line is cut where the stages are (Proof/RefStretches.lean: the meta-net's thirteen operations, seven for each update,
  two for the projection), and what the chain carries from one stretch to the next is stated once (`Carried`): the rows so
  far, in the buffer the next update reads, and the three arrays later stretches still read — the coefficients, the task
  matrices and `Wp` — where they were.  A stretch that leaves its result at a function of those and keeps the three arrays
  carries the state on (`carried_next`); eight such links from the meta-net's stretch, then the projection, give the result
  buffer at `refOut` of the arguments (`after_ops`), and every weakly fair execution of @main ends there with the arguments
  unchanged (`run`).  For any float instance.
-/
import proofs.«123341_j773094113739_1_alg».proof.Proof.RefStretches
import Idealize.ShloMosaic.Lib.Pipeline.Frame

noncomputable section

namespace Cert.ReferenceIdeal.Mix

open Cert.ReferenceIdeal Cert.ReferenceIdeal.Gen Idealize.ShloMosaic Idealize.ShloMosaic.TcCoe Idealize.SL.Sem Idealize.ShloMosaic.StableHlo

variable {F : FTy → Type} [FloatOps F]

/-- The state between two stretches: `cur` holds the rows `T`; the coefficients, the task matrices and `Wp` hold `C`, `X5`, `X6`. -/
def Carried (W : Valuation τ sig (Elt F)) (cur : Ref sig .tc) (T : (Proc.devRef (τ := τ) .tc cur).ty.Contents (Elt F))
    (C : Vec F S4096x8 .f32) (X5 : Vec F S8x1024x1024 .f32) (X6 : Vec F S1024x1024 .f32) : Prop :=
  W (Proc.devRef .tc cur) = T ∧ W (Proc.devRef .tc main_v10) = C ∧ W (Proc.devRef .tc main_arg5) = X5 ∧ W (Proc.devRef .tc main_arg6) = X6

/-- After the meta-net's stretch: the features still in their argument buffer, the coefficients computed. -/
theorem carried_head (V : Valuation τ sig (Elt F)) :
    Carried (after headOps V) main_arg0 (V (Proc.devRef .tc main_arg0))
      (coefArr (V (Proc.devRef .tc main_arg0)) (V (Proc.devRef .tc main_arg1)) (V (Proc.devRef .tc main_arg2)) (V (Proc.devRef .tc main_arg3)) (V (Proc.devRef .tc main_arg4)))
      (V (Proc.devRef .tc main_arg5)) (V (Proc.devRef .tc main_arg6)) :=
  ⟨(head_keep V).1, head_res V, (head_keep V).2.1, (head_keep V).2.2⟩

/-- ONE LINK: a stretch that leaves `out` at `f` of the coefficients, the task matrices and the rows in `prev` (`hres`), and
    keeps the three arrays (`hkeep`), carries the state from `prev` on to `out`. -/
theorem carried_next {W : Valuation τ sig (Elt F)} {ops : List (HloOp τ sig (Elt F))} {prev out : Ref sig .tc}
    {T : (Proc.devRef (τ := τ) .tc prev).ty.Contents (Elt F)} {C : Vec F S4096x8 .f32} {X5 : Vec F S8x1024x1024 .f32}
    {X6 : Vec F S1024x1024 .f32}
    (f : Vec F S4096x8 .f32 → Vec F S8x1024x1024 .f32 → (Proc.devRef (τ := τ) .tc prev).ty.Contents (Elt F)
      → (Proc.devRef (τ := τ) .tc out).ty.Contents (Elt F))
    (hres : ∀ W : Valuation τ sig (Elt F), after ops W (Proc.devRef .tc out)
      = f (W (Proc.devRef .tc main_v10)) (W (Proc.devRef .tc main_arg5)) (W (Proc.devRef .tc prev)))
    (hkeep : ∀ W : Valuation τ sig (Elt F), after ops W (Proc.devRef .tc main_v10) = W (Proc.devRef .tc main_v10)
      ∧ after ops W (Proc.devRef .tc main_arg5) = W (Proc.devRef .tc main_arg5) ∧ after ops W (Proc.devRef .tc main_arg6) = W (Proc.devRef .tc main_arg6))
    (h : Carried W prev T C X5 X6) : Carried (after ops W) out (f C X5 T) C X5 X6 :=
  ⟨by rw [hres W, h.1, h.2.1, h.2.2.1], (hkeep W).1.trans h.2.1, (hkeep W).2.1.trans h.2.2.1, (hkeep W).2.2.trans h.2.2.2⟩

/-- After the whole line the result buffer holds `refOut` of the seven arguments as the line found them. -/
theorem after_ops (V : Valuation τ sig (Elt F)) :
    after (ValueP.ops (F := F)) V (Proc.devRef .tc main_v68)
      = refOut (V (Proc.devRef .tc main_arg0)) (V (Proc.devRef .tc main_arg1)) (V (Proc.devRef .tc main_arg2)) (V (Proc.devRef .tc main_arg3)) (V (Proc.devRef .tc main_arg4))
          (V (Proc.devRef .tc main_arg5)) (V (Proc.devRef .tc main_arg6)) := by
  have h0 := carried_next (prev := main_arg0) (out := main_v17) _ step0_res step0_keep (carried_head V)
  have h1 := carried_next (prev := main_v17) (out := main_v24) _ step1_res step1_keep h0
  have h2 := carried_next (prev := main_v24) (out := main_v31) _ step2_res step2_keep h1
  have h3 := carried_next (prev := main_v31) (out := main_v38) _ step3_res step3_keep h2
  have h4 := carried_next (prev := main_v38) (out := main_v45) _ step4_res step4_keep h3
  have h5 := carried_next (prev := main_v45) (out := main_v52) _ step5_res step5_keep h4
  have h6 := carried_next (prev := main_v52) (out := main_v59) _ step6_res step6_keep h5
  have h7 := carried_next (prev := main_v59) (out := main_v66) _ step7_res step7_keep h6
  rw [ops_split]
  simp only [StableHlo.after_append]
  rw [tail_res, h7.1, h7.2.2.2]
  rfl

set_option maxHeartbeats 4000000 in
/-- No operation of the line writes argument 0. -/
theorem kept_arg0 (V : Valuation τ sig (Elt F)) :
    after (ValueP.ops (F := F)) V (Proc.devRef .tc main_arg0) = V (Proc.devRef .tc main_arg0) := by
  after_results_simp

set_option maxHeartbeats 4000000 in
/-- No operation of the line writes argument 1. -/
theorem kept_arg1 (V : Valuation τ sig (Elt F)) :
    after (ValueP.ops (F := F)) V (Proc.devRef .tc main_arg1) = V (Proc.devRef .tc main_arg1) := by
  after_results_simp

set_option maxHeartbeats 4000000 in
/-- No operation of the line writes argument 2. -/
theorem kept_arg2 (V : Valuation τ sig (Elt F)) :
    after (ValueP.ops (F := F)) V (Proc.devRef .tc main_arg2) = V (Proc.devRef .tc main_arg2) := by
  after_results_simp

set_option maxHeartbeats 4000000 in
/-- No operation of the line writes argument 3. -/
theorem kept_arg3 (V : Valuation τ sig (Elt F)) :
    after (ValueP.ops (F := F)) V (Proc.devRef .tc main_arg3) = V (Proc.devRef .tc main_arg3) := by
  after_results_simp

set_option maxHeartbeats 4000000 in
/-- No operation of the line writes argument 4. -/
theorem kept_arg4 (V : Valuation τ sig (Elt F)) :
    after (ValueP.ops (F := F)) V (Proc.devRef .tc main_arg4) = V (Proc.devRef .tc main_arg4) := by
  after_results_simp

set_option maxHeartbeats 4000000 in
/-- No operation of the line writes argument 5. -/
theorem kept_arg5 (V : Valuation τ sig (Elt F)) :
    after (ValueP.ops (F := F)) V (Proc.devRef .tc main_arg5) = V (Proc.devRef .tc main_arg5) := by
  after_results_simp

set_option maxHeartbeats 4000000 in
/-- No operation of the line writes argument 6. -/
theorem kept_arg6 (V : Valuation τ sig (Elt F)) :
    after (ValueP.ops (F := F)) V (Proc.devRef .tc main_arg6) = V (Proc.devRef .tc main_arg6) := by
  after_results_simp

set_option maxRecDepth 8192 in
set_option maxHeartbeats 28400000 in
/-- On every device, from any memory with zero counters: every weakly fair execution of @main terminates with the result
    at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v68)
          = refOut (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v68).trans (after_ops _),
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _)⟩)
    (run_seq ValueP.scopedRefs_eq ValueP.scopedSems_eq defs main (fun _ => ValueP.ops) ValueP.main_eq (fun _ => ValueP.ops_sub) m ρ)

end Cert.ReferenceIdeal.Mix

end
-- ==== Proof.RefRows.lean ====
/-
  The reference's stages read one row at a time, at the ideal values: the reference computes `G`.

  The host's `dot_general` at the extended reals is, entry by entry, the finite sum over the contracted coordinate (three
  shapes: 1024 → 256, 256 → 8, 1024 → 1024, now with all 4096 rows), a transpose reads the mirrored entry, a bias
  broadcast twice reads the bias, a sliced column broadcast along the row reads that column, and a slab of the task
  matrices sliced and reshaped is the slab.  So row `r` of every stage depends on row `r` of the stage before only, by the
  same row functions as the kernel's blocks (`TaskVectors.mixCoef` of `metaHidden`, `taskStep`, `projectRow`), and the
  reference's result is `TaskVectors.G` of the arguments (`refOut_eq`).
-/
import proofs.«123341_j773094113739_1_alg».proof.Proof.RefStages
import proofs.«123341_j773094113739_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Mix

open Cert.ReferenceIdeal Cert.ReferenceIdeal.Gen Idealize.ShloMosaic Idealize.ShloMosaic.ValueIdx Cert.TaskVectors

/-! ## The three products, entry by entry -/

theorem lhsA_0 (i : S4096x256.Idx) (q : dot_S4096x1024_S1024x256_S4096x256_1_0_0_1_n_n.contr.Idx) :
    (dot_S4096x1024_S1024x256_S4096x256_1_0_0_1_n_n.lhsIdx i q 0).val = (i 0).val := by
  unfold DotDims.lhsIdx
  rw [dif_neg (show ¬(0 : Fin S4096x1024.rank) ∈ dot_S4096x1024_S1024x256_S4096x256_1_0_0_1_n_n.lhsBatch by decide), dif_pos (show (0 : Fin S4096x1024.rank) ∈ dot_S4096x1024_S1024x256_S4096x256_1_0_0_1_n_n.lhsNonContracting by decide)]
  rfl
theorem lhsA_1 (i : S4096x256.Idx) (q : dot_S4096x1024_S1024x256_S4096x256_1_0_0_1_n_n.contr.Idx) :
    (dot_S4096x1024_S1024x256_S4096x256_1_0_0_1_n_n.lhsIdx i q 1).val = (q ⟨0, by decide⟩).val :=
  dot_S4096x1024_S1024x256_S4096x256_1_0_0_1_n_n.lhsIdx_val_of_single rfl i q
theorem rhsA_0 (i : S4096x256.Idx) (q : dot_S4096x1024_S1024x256_S4096x256_1_0_0_1_n_n.contr.Idx) :
    (dot_S4096x1024_S1024x256_S4096x256_1_0_0_1_n_n.rhsIdx i q 0).val = (q ⟨0, by decide⟩).val :=
  dot_S4096x1024_S1024x256_S4096x256_1_0_0_1_n_n.rhsIdx_val_of_single rfl i q
theorem rhsA_1 (i : S4096x256.Idx) (q : dot_S4096x1024_S1024x256_S4096x256_1_0_0_1_n_n.contr.Idx) :
    (dot_S4096x1024_S1024x256_S4096x256_1_0_0_1_n_n.rhsIdx i q 1).val = (i 1).val := by
  unfold DotDims.rhsIdx
  rw [dif_neg (show ¬(1 : Fin S1024x256.rank) ∈ dot_S4096x1024_S1024x256_S4096x256_1_0_0_1_n_n.rhsBatch by decide), dif_pos (show (1 : Fin S1024x256.rank) ∈ dot_S4096x1024_S1024x256_S4096x256_1_0_0_1_n_n.rhsNonContracting by decide)]
  rfl

/-- All 4096 feature rows times `W1ᵀ`: entry `(r, h)` is `∑ₖ a (r, k) · b (k, h)`. -/
theorem dotA_apply (a : FVec Ideal S4096x1024 .f32) (b : FVec Ideal S1024x256 .f32) (r : Fin 4096) (h : Fin 256) :
    Host.dotGeneral dot_S4096x1024_S1024x256_S4096x256_1_0_0_1_n_n none a b (ix2 r h)
      = ∑ k : Fin 1024, a (ix2 r k) * b (ix2 k h) := by
  simp only [Host.dotGeneral]
  rw [Ideal.dotGeneral_apply, ← Equiv.sum_comp (contrEquiv1 dot_S4096x1024_S1024x256_S4096x256_1_0_0_1_n_n 1024 rfl rfl).symm]
  refine Finset.sum_congr rfl fun k _ => ?_
  have hk := contrEquiv1_symm_val dot_S4096x1024_S1024x256_S4096x256_1_0_0_1_n_n 1024 rfl rfl k
  have el : dot_S4096x1024_S1024x256_S4096x256_1_0_0_1_n_n.lhsIdx (ix2 r h) ((contrEquiv1 dot_S4096x1024_S1024x256_S4096x256_1_0_0_1_n_n 1024 rfl rfl).symm k) = ix2 r k := funext fun a => Fin.ext (by
    match a with
    | ⟨0, _⟩ => exact lhsA_0 _ _
    | ⟨1, _⟩ => exact (lhsA_1 _ _).trans hk)
  have er : dot_S4096x1024_S1024x256_S4096x256_1_0_0_1_n_n.rhsIdx (ix2 r h) ((contrEquiv1 dot_S4096x1024_S1024x256_S4096x256_1_0_0_1_n_n 1024 rfl rfl).symm k) = ix2 k h := funext fun a => Fin.ext (by
    match a with
    | ⟨0, _⟩ => exact (rhsA_0 _ _).trans hk
    | ⟨1, _⟩ => exact rhsA_1 _ _)
  rw [el, er]

theorem lhsB_0 (i : S4096x8.Idx) (q : dot_S4096x256_S256x8_S4096x8_1_0_0_1_n_n.contr.Idx) :
    (dot_S4096x256_S256x8_S4096x8_1_0_0_1_n_n.lhsIdx i q 0).val = (i 0).val := by
  unfold DotDims.lhsIdx
  rw [dif_neg (show ¬(0 : Fin S4096x256.rank) ∈ dot_S4096x256_S256x8_S4096x8_1_0_0_1_n_n.lhsBatch by decide), dif_pos (show (0 : Fin S4096x256.rank) ∈ dot_S4096x256_S256x8_S4096x8_1_0_0_1_n_n.lhsNonContracting by decide)]
  rfl
theorem lhsB_1 (i : S4096x8.Idx) (q : dot_S4096x256_S256x8_S4096x8_1_0_0_1_n_n.contr.Idx) :
    (dot_S4096x256_S256x8_S4096x8_1_0_0_1_n_n.lhsIdx i q 1).val = (q ⟨0, by decide⟩).val :=
  dot_S4096x256_S256x8_S4096x8_1_0_0_1_n_n.lhsIdx_val_of_single rfl i q
theorem rhsB_0 (i : S4096x8.Idx) (q : dot_S4096x256_S256x8_S4096x8_1_0_0_1_n_n.contr.Idx) :
    (dot_S4096x256_S256x8_S4096x8_1_0_0_1_n_n.rhsIdx i q 0).val = (q ⟨0, by decide⟩).val :=
  dot_S4096x256_S256x8_S4096x8_1_0_0_1_n_n.rhsIdx_val_of_single rfl i q
theorem rhsB_1 (i : S4096x8.Idx) (q : dot_S4096x256_S256x8_S4096x8_1_0_0_1_n_n.contr.Idx) :
    (dot_S4096x256_S256x8_S4096x8_1_0_0_1_n_n.rhsIdx i q 1).val = (i 1).val := by
  unfold DotDims.rhsIdx
  rw [dif_neg (show ¬(1 : Fin S256x8.rank) ∈ dot_S4096x256_S256x8_S4096x8_1_0_0_1_n_n.rhsBatch by decide), dif_pos (show (1 : Fin S256x8.rank) ∈ dot_S4096x256_S256x8_S4096x8_1_0_0_1_n_n.rhsNonContracting by decide)]
  rfl

/-- All 4096 hidden rows times `W2ᵀ`: entry `(r, j)` is `∑ₕ a (r, h) · b (h, j)`. -/
theorem dotB_apply (a : FVec Ideal S4096x256 .f32) (b : FVec Ideal S256x8 .f32) (r : Fin 4096) (j : Fin 8) :
    Host.dotGeneral dot_S4096x256_S256x8_S4096x8_1_0_0_1_n_n none a b (ix2 r j)
      = ∑ h : Fin 256, a (ix2 r h) * b (ix2 h j) := by
  simp only [Host.dotGeneral]
  rw [Ideal.dotGeneral_apply, ← Equiv.sum_comp (contrEquiv1 dot_S4096x256_S256x8_S4096x8_1_0_0_1_n_n 256 rfl rfl).symm]
  refine Finset.sum_congr rfl fun k _ => ?_
  have hk := contrEquiv1_symm_val dot_S4096x256_S256x8_S4096x8_1_0_0_1_n_n 256 rfl rfl k
  have el : dot_S4096x256_S256x8_S4096x8_1_0_0_1_n_n.lhsIdx (ix2 r j) ((contrEquiv1 dot_S4096x256_S256x8_S4096x8_1_0_0_1_n_n 256 rfl rfl).symm k) = ix2 r k := funext fun a => Fin.ext (by
    match a with
    | ⟨0, _⟩ => exact lhsB_0 _ _
    | ⟨1, _⟩ => exact (lhsB_1 _ _).trans hk)
  have er : dot_S4096x256_S256x8_S4096x8_1_0_0_1_n_n.rhsIdx (ix2 r j) ((contrEquiv1 dot_S4096x256_S256x8_S4096x8_1_0_0_1_n_n 256 rfl rfl).symm k) = ix2 k j := funext fun a => Fin.ext (by
    match a with
    | ⟨0, _⟩ => exact (rhsB_0 _ _).trans hk
    | ⟨1, _⟩ => exact rhsB_1 _ _)
  rw [el, er]

theorem lhsC_0 (i : S4096x1024.Idx) (q : dot_S4096x1024_S1024x1024_S4096x1024_1_0_0_1_n_n.contr.Idx) :
    (dot_S4096x1024_S1024x1024_S4096x1024_1_0_0_1_n_n.lhsIdx i q 0).val = (i 0).val := by
  unfold DotDims.lhsIdx
  rw [dif_neg (show ¬(0 : Fin S4096x1024.rank) ∈ dot_S4096x1024_S1024x1024_S4096x1024_1_0_0_1_n_n.lhsBatch by decide), dif_pos (show (0 : Fin S4096x1024.rank) ∈ dot_S4096x1024_S1024x1024_S4096x1024_1_0_0_1_n_n.lhsNonContracting by decide)]
  rfl
theorem lhsC_1 (i : S4096x1024.Idx) (q : dot_S4096x1024_S1024x1024_S4096x1024_1_0_0_1_n_n.contr.Idx) :
    (dot_S4096x1024_S1024x1024_S4096x1024_1_0_0_1_n_n.lhsIdx i q 1).val = (q ⟨0, by decide⟩).val :=
  dot_S4096x1024_S1024x1024_S4096x1024_1_0_0_1_n_n.lhsIdx_val_of_single rfl i q
theorem rhsC_0 (i : S4096x1024.Idx) (q : dot_S4096x1024_S1024x1024_S4096x1024_1_0_0_1_n_n.contr.Idx) :
    (dot_S4096x1024_S1024x1024_S4096x1024_1_0_0_1_n_n.rhsIdx i q 0).val = (q ⟨0, by decide⟩).val :=
  dot_S4096x1024_S1024x1024_S4096x1024_1_0_0_1_n_n.rhsIdx_val_of_single rfl i q
theorem rhsC_1 (i : S4096x1024.Idx) (q : dot_S4096x1024_S1024x1024_S4096x1024_1_0_0_1_n_n.contr.Idx) :
    (dot_S4096x1024_S1024x1024_S4096x1024_1_0_0_1_n_n.rhsIdx i q 1).val = (i 1).val := by
  unfold DotDims.rhsIdx
  rw [dif_neg (show ¬(1 : Fin S1024x1024.rank) ∈ dot_S4096x1024_S1024x1024_S4096x1024_1_0_0_1_n_n.rhsBatch by decide), dif_pos (show (1 : Fin S1024x1024.rank) ∈ dot_S4096x1024_S1024x1024_S4096x1024_1_0_0_1_n_n.rhsNonContracting by decide)]
  rfl

/-- All 4096 rows times a 1024 × 1024 matrix: entry `(r, d)` is `∑ₖ a (r, k) · b (k, d)`. -/
theorem dotC_apply (a : FVec Ideal S4096x1024 .f32) (b : FVec Ideal S1024x1024 .f32) (r : Fin 4096) (d : Fin 1024) :
    Host.dotGeneral dot_S4096x1024_S1024x1024_S4096x1024_1_0_0_1_n_n none a b (ix2 r d)
      = ∑ k : Fin 1024, a (ix2 r k) * b (ix2 k d) := by
  simp only [Host.dotGeneral]
  rw [Ideal.dotGeneral_apply, ← Equiv.sum_comp (contrEquiv1 dot_S4096x1024_S1024x1024_S4096x1024_1_0_0_1_n_n 1024 rfl rfl).symm]
  refine Finset.sum_congr rfl fun k _ => ?_
  have hk := contrEquiv1_symm_val dot_S4096x1024_S1024x1024_S4096x1024_1_0_0_1_n_n 1024 rfl rfl k
  have el : dot_S4096x1024_S1024x1024_S4096x1024_1_0_0_1_n_n.lhsIdx (ix2 r d) ((contrEquiv1 dot_S4096x1024_S1024x1024_S4096x1024_1_0_0_1_n_n 1024 rfl rfl).symm k) = ix2 r k := funext fun a => Fin.ext (by
    match a with
    | ⟨0, _⟩ => exact lhsC_0 _ _
    | ⟨1, _⟩ => exact (lhsC_1 _ _).trans hk)
  have er : dot_S4096x1024_S1024x1024_S4096x1024_1_0_0_1_n_n.rhsIdx (ix2 r d) ((contrEquiv1 dot_S4096x1024_S1024x1024_S4096x1024_1_0_0_1_n_n 1024 rfl rfl).symm k) = ix2 k d := funext fun a => Fin.ext (by
    match a with
    | ⟨0, _⟩ => exact (rhsC_0 _ _).trans hk
    | ⟨1, _⟩ => exact rhsC_1 _ _)
  rw [el, er]

/-! ## The layout pieces -/

/-- The bias `b1`, given a leading unit axis and broadcast over the rows, reads `b1[h]` at `(r, h)`. -/
theorem bias1_apply (x2 : Vec Ideal S256 .f32) (r : Fin 4096) (h : Fin 256) :
    broadcastInDim S4096x256 ![0, 1] bcast_S1x256_S4096x256_0_1 (broadcastInDim S1x256 ![1] bcast_S256_S1x256_1 x2) (ix2 r h) = x2 (ix1 h) := by
  refine (broadcastInDim_apply _ bcast_S1x256_S4096x256_0_1 _ (ix2 r h) (ix2 (0 : Fin 1) h) (fun a => ?_)).trans ?_
  · match a with
    | ⟨0, _⟩ => show (0 : Nat) = if (1 : Nat) = 1 then 0 else r.val; rw [if_pos rfl]
    | ⟨1, _⟩ => show h.val = if (256 : Nat) = 1 then 0 else h.val; rw [if_neg (by decide)]
  · exact broadcastInDim_apply _ bcast_S256_S1x256_1 x2 (ix2 (0 : Fin 1) h) (ix1 h) (fun a => match a with
      | ⟨0, _⟩ => by show h.val = if (256 : Nat) = 1 then 0 else h.val; rw [if_neg (by decide)])

/-- The bias `b2` likewise reads `b2[j]` at `(r, j)`. -/
theorem bias2_apply (x4 : Vec Ideal S8 .f32) (r : Fin 4096) (j : Fin 8) :
    broadcastInDim S4096x8 ![0, 1] bcast_S1x8_S4096x8_0_1 (broadcastInDim S1x8 ![1] bcast_S8_S1x8_1 x4) (ix2 r j) = x4 (ix1 j) := by
  refine (broadcastInDim_apply _ bcast_S1x8_S4096x8_0_1 _ (ix2 r j) (ix2 (0 : Fin 1) j) (fun a => ?_)).trans ?_
  · match a with
    | ⟨0, _⟩ => show (0 : Nat) = if (1 : Nat) = 1 then 0 else r.val; rw [if_pos rfl]
    | ⟨1, _⟩ => show j.val = if (8 : Nat) = 1 then 0 else j.val; rw [if_neg (by decide)]
  · exact broadcastInDim_apply _ bcast_S8_S1x8_1 x4 (ix2 (0 : Fin 1) j) (ix1 j) (fun a => match a with
      | ⟨0, _⟩ => by show j.val = if (8 : Nat) = 1 then 0 else j.val; rw [if_neg (by decide)])

/-- The rectifier's zero, broadcast from a scalar, reads the zero word's value everywhere. -/
theorem zero_apply (r : Fin 4096) (h : Fin 256) :
    broadcastInDim S4096x256 ![] bcast_S_S4096x256 (constant (F := Ideal) S_ .f32 0x00000000#32) (ix2 r h) = Ideal.ofBits .f32 0x00000000#32 :=
  broadcastInDim_apply _ bcast_S_S4096x256 _ (ix2 r h) (fun a => a.elim0) (fun a => a.elim0)

/-- Column `j` of the coefficients, sliced and broadcast along the row, reads at `(r, q)` the coefficient `(r, j)`. -/
theorem coefColumn_apply (jn : Nat) (hj : jn < 8) (hs : S4096x8.Slices ![0, jn] S4096x1) (c : Vec Ideal S4096x8 .f32)
    (r : Fin 4096) (q : Fin 1024) :
    broadcastInDim S4096x1024 ![0, 1] bcast_S4096x1_S4096x1024_0_1 (extractStridedSlice S4096x1 ![0, jn] c hs) (ix2 r q) = c (ix2 r ⟨jn, hj⟩) := by
  refine (broadcastInDim_apply _ bcast_S4096x1_S4096x1024_0_1 _ (ix2 r q) (ix2 r (0 : Fin 1)) (fun a => ?_)).trans ?_
  · match a with
    | ⟨0, _⟩ => show r.val = if (4096 : Nat) = 1 then 0 else r.val; rw [if_neg (by decide)]
    | ⟨1, _⟩ => show (0 : Nat) = if (1 : Nat) = 1 then 0 else q.val; rw [if_pos rfl]
  · exact extractStridedSlice_apply ![0, jn] c hs (ix2 r (0 : Fin 1)) (ix2 r ⟨jn, hj⟩) (fun a => match a with
      | ⟨0, _⟩ => by show r.val = 0 + r.val; omega
      | ⟨1, _⟩ => by show jn = jn + 0; omega)

/-- Slab `j` of the task matrices, sliced and reshaped to a matrix, reads at `(k, d)` the entry `(j, k, d)`. -/
theorem slab_apply (jn : Nat) (hj : jn < 8) (hm : S8x1024x1024.Slices ![jn, 0, 0] S1x1024x1024) (x5 : Vec Ideal S8x1024x1024 .f32)
    (k d : Fin 1024) :
    shapeCast S1024x1024 (extractStridedSlice S1x1024x1024 ![jn, 0, 0] x5 hm) shapeCasts_S1x1024x1024_S1024x1024 (ix2 k d)
      = x5 (ix3 ⟨jn, hj⟩ k d) := by
  rw [shapeCast_1ab_ab_apply]
  exact extractStridedSlice_apply ![jn, 0, 0] x5 hm (ix3 (0 : Fin 1) k d) (ix3 ⟨jn, hj⟩ k d) (fun a => match a with
    | ⟨0, _⟩ => by show jn = jn + 0; omega
    | ⟨1, _⟩ => by show k.val = 0 + k.val; omega
    | ⟨2, _⟩ => by show d.val = 0 + d.val; omega)

/-! ## The stages, one row at a time -/

/-- Row `r` of the coefficient array is `mixCoef` of `metaHidden` of row `r` of the features. -/
theorem coefArr_apply (x0 : Vec Ideal S4096x1024 .f32) (x1 : Vec Ideal S256x1024 .f32) (x2 : Vec Ideal S256 .f32)
    (x3 : Vec Ideal S8x256 .f32) (x4 : Vec Ideal S8 .f32) (r : Fin 4096) (j : Fin 8) :
    coefArr (F := Ideal) x0 x1 x2 x3 x4 (ix2 r j)
      = mixCoef (fun h j => x3 (ix2 j h)) (fun j => x4 (ix1 j))
          (metaHidden (fun k h => x1 (ix2 h k)) (fun h => x2 (ix1 h)) (fun k => x0 (ix2 r k))) j := by
  unfold coefArr mixCoef metaHidden
  rw [addf_apply, dotB_apply, bias2_apply]
  refine congrArg (· + x4 (ix1 j)) (Finset.sum_congr rfl fun h _ => ?_)
  rw [maximumf_apply, addf_apply, dotA_apply, bias1_apply, zero_apply, transpose_ix2_apply]
  refine congrArg (fun s => max (s + x2 (ix1 h)) (Ideal.ofBits .f32 0x00000000#32) * x3 (ix2 j h)) (Finset.sum_congr rfl fun k _ => ?_)
  rw [transpose_ix2_apply]

/-- Row `r` after one update is `taskStep` of row `r` before it, with the row's coefficient `j` and task matrix `j`. -/
theorem hostStep_row (jn : Nat) (hj : jn < 8) (hs : S4096x8.Slices ![0, jn] S4096x1) (hm : S8x1024x1024.Slices ![jn, 0, 0] S1x1024x1024)
    (c : Vec Ideal S4096x8 .f32) (x5 : Vec Ideal S8x1024x1024 .f32) (t : Vec Ideal S4096x1024 .f32) (r : Fin 4096) :
    (fun q => hostStep jn hs hm c x5 t (ix2 r q))
      = taskStep (c (ix2 r ⟨jn, hj⟩)) (fun k d => x5 (ix3 ⟨jn, hj⟩ k d)) (fun k => t (ix2 r k)) := by
  funext q
  unfold hostStep taskStep
  rw [addf_apply, mulf_apply, dotC_apply, coefColumn_apply jn hj]
  simp only [slab_apply jn hj]

/-- Row `r` of the projected rows is `projectRow` of row `r`, against `Wp` read transposed. -/
theorem hostProject_row (x6 : Vec Ideal S1024x1024 .f32) (t : Vec Ideal S4096x1024 .f32) (r : Fin 4096) :
    (fun q => hostProject x6 t (ix2 r q)) = projectRow (fun k d => x6 (ix2 d k)) (fun k => t (ix2 r k)) := by
  funext q
  unfold hostProject projectRow
  rw [dotC_apply]
  refine Finset.sum_congr rfl fun k _ => ?_
  rw [transpose_ix2_apply]

/-- One link of the chain of updates. -/
theorem hostStep_link (jn : Nat) (hj : jn < 8) (hs : S4096x8.Slices ![0, jn] S4096x1) (hm : S8x1024x1024.Slices ![jn, 0, 0] S1x1024x1024)
    (c : Vec Ideal S4096x8 .f32) (x5 : Vec Ideal S8x1024x1024 .f32) (t : Vec Ideal S4096x1024 .f32) (r : Fin 4096)
    (cf : EReal) (tr : Fin 1024 → EReal) (hc : c (ix2 r ⟨jn, hj⟩) = cf) (ht : (fun k => t (ix2 r k)) = tr) :
    (fun q => hostStep jn hs hm c x5 t (ix2 r q)) = taskStep cf (fun k d => x5 (ix3 ⟨jn, hj⟩ k d)) tr := by
  rw [hostStep_row jn hj, hc, ht]

/-- THE REFERENCE COMPUTES `G`: its result, entry by entry, is `rowOut` of the entry's row of the features. -/
theorem refOut_eq (x0 : Vec Ideal S4096x1024 .f32) (x1 : Vec Ideal S256x1024 .f32) (x2 : Vec Ideal S256 .f32)
    (x3 : Vec Ideal S8x256 .f32) (x4 : Vec Ideal S8 .f32) (x5 : Vec Ideal S8x1024x1024 .f32) (x6 : Vec Ideal S1024x1024 .f32) :
    refOut (F := Ideal) x0 x1 x2 x3 x4 x5 x6 = G x0 x1 x2 x3 x4 x5 x6 := by
  funext i
  obtain ⟨r, q, rfl⟩ : ∃ (r : Fin 4096) (q : Fin 1024), i = ix2 r q := ⟨i 0, i 1, eq_ix2 i⟩
  show refOut (F := Ideal) x0 x1 x2 x3 x4 x5 x6 (ix2 r q)
    = rowOut (fun k h => x1 (ix2 h k)) (fun h => x2 (ix1 h)) (fun h j => x3 (ix2 j h)) (fun j => x4 (ix1 j))
        (fun j k d => x5 (ix3 j k d)) (fun k d => x6 (ix2 d k)) (fun k => x0 (ix2 r k)) q
  unfold refOut rowOut taskSteps
  refine (congrFun (hostProject_row x6 _ r) q).trans (congrArg (fun t => projectRow _ t q) ?_)
  refine hostStep_link 7 (by decide) _ _ _ x5 _ r _ _ (coefArr_apply x0 x1 x2 x3 x4 r 7) ?_
  refine hostStep_link 6 (by decide) _ _ _ x5 _ r _ _ (coefArr_apply x0 x1 x2 x3 x4 r 6) ?_
  refine hostStep_link 5 (by decide) _ _ _ x5 _ r _ _ (coefArr_apply x0 x1 x2 x3 x4 r 5) ?_
  refine hostStep_link 4 (by decide) _ _ _ x5 _ r _ _ (coefArr_apply x0 x1 x2 x3 x4 r 4) ?_
  refine hostStep_link 3 (by decide) _ _ _ x5 _ r _ _ (coefArr_apply x0 x1 x2 x3 x4 r 3) ?_
  refine hostStep_link 2 (by decide) _ _ _ x5 _ r _ _ (coefArr_apply x0 x1 x2 x3 x4 r 2) ?_
  refine hostStep_link 1 (by decide) _ _ _ x5 _ r _ _ (coefArr_apply x0 x1 x2 x3 x4 r 1) ?_
  exact hostStep_link 0 (by decide) _ _ _ x5 _ r _ _ (coefArr_apply x0 x1 x2 x3 x4 r 0) rfl

end Cert.ReferenceIdeal.Mix

end
-- ==== Proof.lean ====
/-
  The certificate of a soft task-vector kernel against its reference, over the extended reals.

  Both programs take a batch of 4096 feature rows `x` (1024 wide) and compute, row by row,
    c = relu (x · W1ᵀ + b1) · W2ᵀ + b2            (eight mixing coefficients),
    t₀ = x,  tⱼ₊₁ = tⱼ + cⱼ · (tⱼ · Mⱼ)   (j = 0 … 7, the eight task matrices in order),
    out = t₈ · Wpᵀ.
  The kernel restages the weights before its one region (transposes, a unit axis on the biases, a narrowing to bf16 that
  at the ideal values changes nothing) and then handles 512 rows at each of eight grid points, the eight updates unrolled
  in the body; the reference runs the same operations on all rows at once.  No row's result depends on another row, and
  the operations and their order agree one by one, so no algebraic law is needed and the precondition is never opened:
  both results are the one function `TaskVectors.G` of the argument arrays (Proof/Spec.lean).

  Kernel side: the stored payload is eight nested steps and a projection (Proof/KernelFold.lean), each read one row at a
  time (Proof/KernelRows.lean); the staged operands read the arguments' entries (Proof/KernelHost.lean); the eight
  blocks cover the array (Proof/KernelArray.lean).  Reference side: its result as named stages (Proof/RefStages.lean),
  its run read back stretch by stretch (Proof/RefOps.lean, Proof/RefStretches.lean, Proof/RefRun.lean), and the stages
  read one row at a time (Proof/RefRows.lean).  The frames of the two kernel programs are the generated ones; the
  reference's is its run with the result dropped; the idealization rewrote nothing, so `preserves` is `True`.
-/
import proofs.«123341_j773094113739_1_alg».proof.Defs
import proofs.«123341_j773094113739_1_alg».proof.Proof.Gen.Kernel
import proofs.«123341_j773094113739_1_alg».proof.Proof.Gen.Kernel.Skeleton
import proofs.«123341_j773094113739_1_alg».proof.Proof.Gen.Kernel.Launch
import proofs.«123341_j773094113739_1_alg».proof.Proof.Gen.Kernel.Points
import proofs.«123341_j773094113739_1_alg».proof.Proof.Gen.Kernel.Frame
import proofs.«123341_j773094113739_1_alg».proof.Proof.Gen.KernelIdeal
import proofs.«123341_j773094113739_1_alg».proof.Proof.Gen.KernelIdeal.Skeleton
import proofs.«123341_j773094113739_1_alg».proof.Proof.Gen.KernelIdeal.Launch
import proofs.«123341_j773094113739_1_alg».proof.Proof.Gen.KernelIdeal.Points
import proofs.«123341_j773094113739_1_alg».proof.Proof.Gen.KernelIdeal.Frame
import proofs.«123341_j773094113739_1_alg».proof.Proof.Gen.ReferenceIdeal
import proofs.«123341_j773094113739_1_alg».proof.Proof.Gen.Pre_finite_inputs
import proofs.«123341_j773094113739_1_alg».proof.Proof.Gen.KernelIdeal.Value
import proofs.«123341_j773094113739_1_alg».proof.Proof.KernelArray
import proofs.«123341_j773094113739_1_alg».proof.Proof.RefRun
import proofs.«123341_j773094113739_1_alg».proof.Proof.RefRows
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Mix.run (F := Ideal) m ρ)

/-- The ideal pass rewrote no operation. -/
theorem preserves : Cert.preserves_Kernel_KernelIdeal := trivial

/-- The kernel's result array ends at `G` of its arguments and the reference's at `refOut` of its own, which is `G` of
    them; the arguments agree. -/
theorem algebraic : Cert.algebraic_KernelIdeal_ReferenceIdeal := by
  intro m ρ m' ρ' _ hagree
  refine ⟨fun c => Cert.KernelIdeal.Mix.Gm m c, Cert.KernelIdeal.Mix.run m ρ, ?_⟩
  refine (θ_run Cert.ReferenceIdeal.defs _ _).mono (fun _ h c => ⟨(h c).1.trans ?_, (h c).2⟩)
    (Cert.ReferenceIdeal.Mix.run (F := Ideal) m' ρ')
  rw [Cert.ReferenceIdeal.Mix.refOut_eq, (hagree c).1, (hagree c).2.1, (hagree c).2.2.1, (hagree c).2.2.2.1,
    (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
